-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v33)) (v1 : (c : Dev Cert.KernelIdeal.nD) → Buf (Elt Ideal) ((c.tc : Thread Cert.KernelIdeal.nD Cert.KernelIdeal.τ).loc Cert.KernelIdeal.main_v20)) (v2 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_v20) = v1 c
          ∧ r.2.mem ((c.tc : Thread Cert.KernelIdeal.nD Cert.KernelIdeal.τ).loc Cert.KernelIdeal.main_v32) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_v20) = v1 c
          ∧ r.2.mem ((c.tc : Thread Cert.ReferenceIdeal.nD Cert.ReferenceIdeal.τ).loc Cert.ReferenceIdeal.main_v47) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x3x3 : Shape := ⟨3, ![8, 3, 3]⟩
abbrev S8x3 : Shape := ⟨2, ![8, 3]⟩
abbrev S8 : Shape := ⟨1, ![8]⟩
abbrev S8x4096x3 : Shape := ⟨3, ![8, 4096, 3]⟩
abbrev S_ : Shape := ⟨0, ![]⟩

class Facts : Prop where
  bcast_S_S8x3x3 : S_.BroadcastsInDim S8x3x3 (![] : Fin 0 → Fin S8x3x3.rank)
  reducesTo_S8x3x3_S_d0_1_2 : S8x3x3.ReducesTo [0, 1, 2] S_
  h_S_ : 0 < S_.numel
  bcast_S_S8x3 : S_.BroadcastsInDim S8x3 (![] : Fin 0 → Fin S8x3.rank)
  reducesTo_S8x3_S_d0_1 : S8x3.ReducesTo [0, 1] S_
  bcast_S_S8 : S_.BroadcastsInDim S8 (![] : Fin 0 → Fin S8.rank)
  reducesTo_S8_S_d0 : S8.ReducesTo [0] S_
  bcast_S_S8x4096x3 : S_.BroadcastsInDim S8x4096x3 (![] : Fin 0 → Fin S8x4096x3.rank)
  reducesTo_S8x4096x3_S_d0_1_2 : S8x4096x3.ReducesTo [0, 1, 2] S_

variable [Facts]

def fn_part2 {F : FTy → Type} [FloatOps F] (main_arg7 : FVec F S8x4096x3 .f32) (main_v33 : IVec S_ 1) : IVec S_ 1 :=
  let main_v34 : FVec F S8x4096x3 .f32 := Host.absf main_arg7
  let main_cst_12 : FVec F S_ .f32 := constant S_ .f32 0x7F800000#32
  let main_v35 : FVec F S8x4096x3 .f32 := broadcastInDim S8x4096x3 ![] bcast_S_S8x4096x3 main_cst_12
  let main_v36 : IVec S8x4096x3 1 := cmpf .olt main_v34 main_v35
  let main_c_13 : IVec S_ 1 := constantI S_ 1 1#1
  let main_v37 : IVec S_ 1 := (fun x v => Host.reduce IntOp.andi x v reducesTo_S8x4096x3_S_d0_1_2 h_S_) main_v36 main_c_13
  let main_v38 : IVec S_ 1 := andi main_v33 main_v37
  main_v38

def fn_part1 {F : FTy → Type} [FloatOps F] (main_arg4 : FVec F S8x3 .f32) (main_arg5 : FVec F S8 .f32) (main_arg6 : FVec F S8x4096x3 .f32) (main_arg7 : FVec F S8x4096x3 .f32) (main_v13 : IVec S_ 1) (main_v16 : IVec S8x3x3 1) : IVec S_ 1 :=
  let main_c_5 : IVec S_ 1 := constantI S_ 1 1#1
  let main_v17 : IVec S_ 1 := (fun x v => Host.reduce IntOp.andi x v reducesTo_S8x3x3_S_d0_1_2 h_S_) main_v16 main_c_5
  let main_v18 : IVec S_ 1 := andi main_v13 main_v17
  let main_v19 : FVec F S8x3 .f32 := Host.absf main_arg4
  let main_cst_6 : FVec F S_ .f32 := constant S_ .f32 0x7F800000#32
  let main_v20 : FVec F S8x3 .f32 := broadcastInDim S8x3 ![] bcast_S_S8x3 main_cst_6
  let main_v21 : IVec S8x3 1 := cmpf .olt main_v19 main_v20
  let main_c_7 : IVec S_ 1 := constantI S_ 1 1#1
  let main_v22 : IVec S_ 1 := (fun x v => Host.reduce IntOp.andi x v reducesTo_S8x3_S_d0_1 h_S_) main_v21 main_c_7
  let main_v23 : IVec S_ 1 := andi main_v18 main_v22
  let main_v24 : FVec F S8 .f32 := Host.absf main_arg5
  let main_cst_8 : FVec F S_ .f32 := constant S_ .f32 0x7F800000#32
  let main_v25 : FVec F S8 .f32 := broadcastInDim S8 ![] bcast_S_S8 main_cst_8
  let main_v26 : IVec S8 1 := cmpf .olt main_v24 main_v25
  let main_c_9 : IVec S_ 1 := constantI S_ 1 1#1
  let main_v27 : IVec S_ 1 := (fun x v => Host.reduce IntOp.andi x v reducesTo_S8_S_d0 h_S_) main_v26 main_c_9
  let main_v28 : IVec S_ 1 := andi main_v23 main_v27
  let main_v29 : FVec F S8x4096x3 .f32 := Host.absf main_arg6
  let main_cst_10 : FVec F S_ .f32 := constant S_ .f32 0x7F800000#32
  let main_v30 : FVec F S8x4096x3 .f32 := broadcastInDim S8x4096x3 ![] bcast_S_S8x4096x3 main_cst_10
  let main_v31 : IVec S8x4096x3 1 := cmpf .olt main_v29 main_v30
  let main_c_11 : IVec S_ 1 := constantI S_ 1 1#1
  let main_v32 : IVec S_ 1 := (fun x v => Host.reduce IntOp.andi x v reducesTo_S8x4096x3_S_d0_1_2 h_S_) main_v31 main_c_11
  let main_v33 : IVec S_ 1 := andi main_v28 main_v32
  fn_part2 (F := F) main_arg7 main_v33

def fn {F : FTy → Type} [FloatOps F] (main_arg0 : FVec F S8x3x3 .f32) (main_arg1 : FVec F S8x3 .f32) (main_arg2 : FVec F S8 .f32) (main_arg3 : FVec F S8x3x3 .f32) (main_arg4 : FVec F S8x3 .f32) (main_arg5 : FVec F S8 .f32) (main_arg6 : FVec F S8x4096x3 .f32) (main_arg7 : FVec F S8x4096x3 .f32) : IVec S_ 1 :=
  let main_v0 : FVec F S8x3x3 .f32 := Host.absf main_arg0
  let main_cst : FVec F S_ .f32 := constant S_ .f32 0x7F800000#32
  let main_v1 : FVec F S8x3x3 .f32 := broadcastInDim S8x3x3 ![] bcast_S_S8x3x3 main_cst
  let main_v2 : IVec S8x3x3 1 := cmpf .olt main_v0 main_v1
  let main_c : IVec S_ 1 := constantI S_ 1 1#1
  let main_v3 : IVec S_ 1 := (fun x v => Host.reduce IntOp.andi x v reducesTo_S8x3x3_S_d0_1_2 h_S_) main_v2 main_c
  let main_v4 : FVec F S8x3 .f32 := Host.absf main_arg1
  let main_cst_0 : FVec F S_ .f32 := constant S_ .f32 0x7F800000#32
  let main_v5 : FVec F S8x3 .f32 := broadcastInDim S8x3 ![] bcast_S_S8x3 main_cst_0
  let main_v6 : IVec S8x3 1 := cmpf .olt main_v4 main_v5
  let main_c_1 : IVec S_ 1 := constantI S_ 1 1#1
  let main_v7 : IVec S_ 1 := (fun x v => Host.reduce IntOp.andi x v reducesTo_S8x3_S_d0_1 h_S_) main_v6 main_c_1
  let main_v8 : IVec S_ 1 := andi main_v3 main_v7
  let main_v9 : FVec F S8 .f32 := Host.absf main_arg2
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  let main_c_3 : IVec S_ 1 := constantI S_ 1 1#1
  let main_v12 : IVec S_ 1 := (fun x v => Host.reduce IntOp.andi x v reducesTo_S8_S_d0 h_S_) main_v11 main_c_3
  let main_v13 : IVec S_ 1 := andi main_v8 main_v12
  let main_v14 : FVec F S8x3x3 .f32 := Host.absf main_arg3
  let main_cst_4 : FVec F S_ .f32 := constant S_ .f32 0x7F800000#32
  let main_v15 : FVec F S8x3x3 .f32 := broadcastInDim S8x3x3 ![] bcast_S_S8x3x3 main_cst_4
  let main_v16 : IVec S8x3x3 1 := cmpf .olt main_v14 main_v15
  fn_part1 (F := F) main_arg4 main_arg5 main_arg6 main_arg7 main_v13 main_v16
-- ==== Kernel.lean ====
abbrev S8x3x3 : Shape := ⟨3, ![8, 3, 3]⟩
abbrev S8x3 : Shape := ⟨2, ![8, 3]⟩
abbrev S8 : Shape := ⟨1, ![8]⟩
abbrev S8x4096x3 : Shape := ⟨3, ![8, 4096, 3]⟩
abbrev S3x3 : Shape := ⟨2, ![3, 3]⟩
abbrev S_ : Shape := ⟨0, ![]⟩
abbrev S1x3x3 : Shape := ⟨3, ![1, 3, 3]⟩
abbrev S8x4096x1 : Shape := ⟨3, ![8, 4096, 1]⟩
abbrev S1x4096x3 : Shape := ⟨3, ![1, 4096, 3]⟩
abbrev S1x256x3 : Shape := ⟨3, ![1, 256, 3]⟩
abbrev S1x4096x1 : Shape := ⟨3, ![1, 4096, 1]⟩
abbrev S1x256x1 : Shape := ⟨3, ![1, 256, 1]⟩
abbrev S4096x1 : Shape := ⟨2, ![4096, 1]⟩
abbrev S4096x3 : Shape := ⟨2, ![4096, 3]⟩
abbrev S256x3 : Shape := ⟨2, ![256, 3]⟩
abbrev S3x256 : Shape := ⟨2, ![3, 256]⟩
abbrev S256 : Shape := ⟨1, ![256]⟩
abbrev S1x256 : Shape := ⟨2, ![1, 256]⟩
abbrev S4096 : Shape := ⟨1, ![4096]⟩
abbrev S4096x256 : Shape := ⟨2, ![4096, 256]⟩
abbrev S256x1 : Shape := ⟨2, ![256, 1]⟩
abbrev S8x4096 : Shape := ⟨2, ![8, 4096]⟩

abbrev nBuf : Space → Nat
  | .hbm => 54
  | .vmem => 8
  | .smem => 0
  | _ => 0

abbrev bufTy : (tb : Table) → Fin (tcTables nBuf tb) → BufTy
  | .hbm, ⟨0, _⟩ => ⟨S8x3x3, .f32⟩
  | .hbm, ⟨1, _⟩ => ⟨S8x3, .f32⟩
  | .hbm, ⟨2, _⟩ => ⟨S8, .f32⟩
  | .hbm, ⟨3, _⟩ => ⟨S8x3x3, .f32⟩
  | .hbm, ⟨4, _⟩ => ⟨S8x3, .f32⟩
  | .hbm, ⟨5, _⟩ => ⟨S8, .f32⟩
  | .hbm, ⟨6, _⟩ => ⟨S8x4096x3, .f32⟩
  | .hbm, ⟨7, _⟩ => ⟨S8x4096x3, .f32⟩
  | .hbm, ⟨8, _⟩ => ⟨S3x3, .i32⟩
  | .hbm, ⟨9, _⟩ => ⟨S3x3, .i32⟩
  | .hbm, ⟨10, _⟩ => ⟨S_, .i32⟩
  | .hbm, ⟨11, _⟩ => ⟨S3x3, .i32⟩
  | .hbm, ⟨12, _⟩ => ⟨S3x3, .i32⟩
  | .hbm, ⟨13, _⟩ => ⟨S3x3, .i1⟩
  | .hbm, ⟨14, _⟩ => ⟨S3x3, .f32⟩
  | .hbm, ⟨15, _⟩ => ⟨S8x3x3, .f32⟩
  | .hbm, ⟨16, _⟩ => ⟨S1x3x3, .f32⟩
  | .hbm, ⟨17, _⟩ => ⟨S8x3x3, .f32⟩
  | .hbm, ⟨18, _⟩ => ⟨S8x3x3, .f32⟩
  | .hbm, ⟨19, _⟩ => ⟨S8x3x3, .f32⟩
  | .hbm, ⟨20, _⟩ => ⟨S_, .f32⟩
  | .hbm, ⟨21, _⟩ => ⟨S8, .f32⟩
  | .hbm, ⟨22, _⟩ => ⟨S8x3, .f32⟩
  | .hbm, ⟨23, _⟩ => ⟨S8x3, .f32⟩
  | .hbm, ⟨24, _⟩ => ⟨S_, .f32⟩
  | .hbm, ⟨25, _⟩ => ⟨S8, .f32⟩
  | .hbm, ⟨26, _⟩ => ⟨S8, .f32⟩
  | .hbm, ⟨27, _⟩ => ⟨S8, .f32⟩
  | .hbm, ⟨28, _⟩ => ⟨S8, .f32⟩
  | .hbm, ⟨29, _⟩ => ⟨S8, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S8x4096x1, .f32⟩
  | .hbm, ⟨35, _⟩ => ⟨S8x4096x1, .f32⟩
  | .hbm, ⟨36, _⟩ => ⟨S8x4096, .f32⟩
  | .hbm, ⟨37, _⟩ => ⟨S8x4096, .f32⟩
  | .hbm, ⟨38, _⟩ => ⟨S_, .f32⟩
  | .hbm, ⟨39, _⟩ => ⟨S8, .f32⟩
  | .hbm, ⟨40, _⟩ => ⟨S_, .f32⟩
  | .hbm, ⟨41, _⟩ => ⟨S8, .f32⟩
  | .hbm, ⟨42, _⟩ => ⟨S8, .f32⟩
  | .hbm, ⟨43, _⟩ => ⟨S_, .f32⟩
  | .hbm, ⟨44, _⟩ => ⟨S8, .f32⟩
  | .hbm, ⟨45, _⟩ => ⟨S_, .f32⟩
  | .hbm, ⟨46, _⟩ => ⟨S8, .f32⟩
  | .hbm, ⟨47, _⟩ => ⟨S8, .f32⟩
  | .hbm, ⟨48, _⟩ => ⟨S8, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .local _ .vmem, ⟨0, _⟩ => ⟨S1x4096x3, .f32⟩
  | .local _ .vmem, ⟨1, _⟩ => ⟨S1x256x3, .f32⟩
  | .local _ .vmem, ⟨2, _⟩ => ⟨S1x256x3, .f32⟩
  | .local _ .vmem, ⟨3, _⟩ => ⟨S1x4096x1, .f32⟩
  | .local _ .vmem, ⟨4, _⟩ => ⟨S1x4096x1, .f32⟩
  | .local _ .vmem, ⟨5, _⟩ => ⟨S1x256x1, .f32⟩
  | .local _ .vmem, ⟨6, _⟩ => ⟨S1x256x1, .f32⟩
  | .local _ .vmem, ⟨7, _⟩ => ⟨S4096x1, .f32⟩
  | _, _ => ⟨S8x3x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_1 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_v21_0 : Ref sig .tc := ⟨.hbm, 34, rfl⟩
abbrev main_v21_1 : Ref sig .tc := ⟨.hbm, 35, rfl⟩
abbrev main_v22 : Ref sig .tc := ⟨.hbm, 36, rfl⟩
abbrev main_v23 : Ref sig .tc := ⟨.hbm, 37, rfl⟩
abbrev main_cst_3 : Ref sig .tc := ⟨.hbm, 38, rfl⟩
abbrev main_v24 : Ref sig .tc := ⟨.hbm, 39, rfl⟩
abbrev main_cst_4 : Ref sig .tc := ⟨.hbm, 40, rfl⟩
abbrev main_v25 : Ref sig .tc := ⟨.hbm, 41, rfl⟩
abbrev main_v26 : Ref sig .tc := ⟨.hbm, 42, rfl⟩
abbrev main_cst_5 : Ref sig .tc := ⟨.hbm, 43, rfl⟩
abbrev main_v27 : Ref sig .tc := ⟨.hbm, 44, rfl⟩
abbrev main_cst_6 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_7 : Ref sig .tc := ⟨.hbm, 49, rfl⟩
abbrev main_v31 : Ref sig .tc := ⟨.hbm, 50, rfl⟩
abbrev main_cst_8 : Ref sig .tc := ⟨.hbm, 51, rfl⟩
abbrev main_v32 : Ref sig .tc := ⟨.hbm, 52, rfl⟩
abbrev main_v33 : Ref sig .tc := ⟨.hbm, 53, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v53 : BitVec 1 := Scalar.cmpi .eq arg1 c15_i32
  let v54 : BitVec 32 := Scalar.extui v53
  let c0_i32_18 : BitVec 32 := 0#32
  let v55 : BitVec 1 := Scalar.cmpi .ne v54 c0_i32_18
  v55

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x4096x3 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x256x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S_S3x3 : S_.BroadcastsInDim S3x3 (![] : Fin 0 → Fin S3x3.rank)
  bcast_S3x3_S1x3x3_1_2 : S3x3.BroadcastsInDim S1x3x3 (![1, 2] : Fin 2 → Fin S1x3x3.rank)
  bcast_S1x3x3_S8x3x3_0_1_2 : S1x3x3.BroadcastsInDim S8x3x3 (![0, 1, 2] : Fin 3 → Fin S8x3x3.rank)
  reducesTo_S8x3x3_S8_d1_2 : S8x3x3.ReducesTo [1, 2] S8
  h_S_ : 0 < S_.numel
  reducesTo_S8x3_S8_d1 : S8x3.ReducesTo [1] S8
  reducesTo_S8_S_d0 : S8.ReducesTo [0] S_
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  inb_S1x4096x3_S1x4096x3_0_0_0 : ∀ a, (![0, 0, 0] : Fin 3 → Nat) a + S1x4096x3.size a ≤ S1x4096x3.size a
  h_S1x4096x3 : 0 < S1x4096x3.numel
  shapeCasts_S1x4096x3_S4096x3 : S1x4096x3.ShapeCasts S4096x3
  inb_S1x256x3_S1x256x3_0_0_0 : ∀ a, (![0, 0, 0] : Fin 3 → Nat) a + S1x256x3.size a ≤ S1x256x3.size a
  h_S1x256x3 : 0 < S1x256x3.numel
  shapeCasts_S1x256x3_S256x3 : S1x256x3.ShapeCasts S256x3
  slices_S4096x3_o0_0_S4096x1 : S4096x3.Slices ![0, 0] S4096x1
  slices_S4096x3_o0_1_S4096x1 : S4096x3.Slices ![0, 1] S4096x1
  slices_S4096x3_o0_2_S4096x1 : S4096x3.Slices ![0, 2] S4096x1
  transposes_S256x3_p1_0_S3x256 : S256x3.Transposes [1, 0] S3x256
  reduces_S3x256_S256 : S3x256.Reduces [0] S256
  shapeCasts_S256_S1x256 : S256.ShapeCasts S1x256
  slices_S3x256_o0_0_S1x256 : S3x256.Slices ![0, 0] S1x256
  slices_S3x256_o1_0_S1x256 : S3x256.Slices ![1, 0] S1x256
  slices_S3x256_o2_0_S1x256 : S3x256.Slices ![2, 0] S1x256
  reduces_S4096x3_S4096 : S4096x3.Reduces [1] S4096
  shapeCasts_S4096_S4096x1 : S4096.ShapeCasts S4096x1
  broadcasts_S4096x1_S4096x256 : S4096x1.Broadcasts S4096x256
  broadcasts_S1x256_S4096x256 : S1x256.Broadcasts S4096x256
  reduces_S4096x256_S4096 : S4096x256.Reduces [1] S4096
  reduces_S4096x256_S256 : S4096x256.Reduces [0] S256
  transposes_S1x256_p1_0_S256x1 : S1x256.Transposes [1, 0] S256x1
  inb_S1x256x1_S1x256x1_0_0_0 : ∀ a, (![0, 0, 0] : Fin 3 → Nat) a + S1x256x1.size a ≤ S1x256x1.size a
  h_S1x256x1 : 0 < S1x256x1.numel
  shapeCasts_S1x256x1_S256x1 : S1x256x1.ShapeCasts S256x1
  shapeCasts_S256x1_S1x256x1 : S256x1.ShapeCasts S1x256x1
  inb_S1x4096x1_S1x4096x1_0_0_0 : ∀ a, (![0, 0, 0] : Fin 3 → Nat) a + S1x4096x1.size a ≤ S1x4096x1.size a
  h_S1x4096x1 : 0 < S1x4096x1.numel
  shapeCasts_S1x4096x1_S4096x1 : S1x4096x1.ShapeCasts S4096x1
  shapeCasts_S4096x1_S1x4096x1 : S4096x1.ShapeCasts S1x4096x1
  shapeCasts_S8x4096x1_S8x4096 : S8x4096x1.ShapeCasts S8x4096
  reducesTo_S8x4096_S8_d1 : S8x4096.ReducesTo [1] S8
  bcast_S_S8 : S_.BroadcastsInDim S8 (![] : Fin 0 → Fin S8.rank)
  dot_S8x3x3_S8x3x3_S8x3x3_1_1_2_2_0_0_wf : DotDims.WF S8x3x3 S8x3x3 S8x3x3 [1] [1] [2] [2] [0] [0]
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x4096x3.size a ≤ S8x4096x3.size a
  hwx0_0 : ∀ i : grid0.Coords, EltTy.bits .f32 = 32 ∨ (Rect.block (s := S8x4096x3) S1x4096x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x3.size a ≤ S8x4096x3.size a
  hwx0_1 : ∀ i : grid0.Coords, EltTy.bits .f32 = 32 ∨ (Rect.block (s := S8x4096x3) S1x256x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4096x1.size a ≤ S8x4096x1.size a
  hwx0_2 : ∀ i : grid0.Coords, EltTy.bits .f32 = 32 ∨ (Rect.block (s := S8x4096x1) S1x4096x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x1.size a ≤ S8x4096x1.size a
  hwx0_3 : ∀ i : grid0.Coords, EltTy.bits .f32 = 32 ∨ (Rect.block (s := S8x4096x1) S1x256x1.size (cc0_transform_3 i) (hinb0_3 i)).WholeWords (EltTy.packing .f32)

variable [Facts₀]

def dot_S8x3x3_S8x3x3_S8x3x3_1_1_2_2_0_0 : DotDims S8x3x3 S8x3x3 S8x3x3 where
  lhsContracting := [1]
  rhsContracting := [1]
  lhsNonContracting := [2]
  rhsNonContracting := [2]
  lhsBatch := [0]
  rhsBatch := [0]
  wf := dot_S8x3x3_S8x3x3_S8x3x3_1_1_2_2_0_0_wf

abbrev win0_0 : Pipeline.Window sig grid0 :=
  Pipeline.Window.ofSpec (Memref.whole main_arg6) S1x4096x3.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg7) S1x256x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v21_0) S1x4096x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v21_1) S1x256x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun _ => false | ⟨_ + 4, h⟩ => absurd h (Nat.not_lt.2 (Nat.le_add_left _ _))

class Facts : Prop extends Facts₀ where

variable [Facts]
-- ==== ReferenceIdeal.lean ====
abbrev S8x3x3 : Shape := ⟨3, ![8, 3, 3]⟩
abbrev S8x3 : Shape := ⟨2, ![8, 3]⟩
abbrev S8 : Shape := ⟨1, ![8]⟩
abbrev S8x4096x3 : Shape := ⟨3, ![8, 4096, 3]⟩
abbrev S3x3 : Shape := ⟨2, ![3, 3]⟩
abbrev S_ : Shape := ⟨0, ![]⟩
abbrev S1x3x3 : Shape := ⟨3, ![1, 3, 3]⟩
abbrev S8x4096 : Shape := ⟨2, ![8, 4096]⟩
abbrev S8x4096x4096 : Shape := ⟨3, ![8, 4096, 4096]⟩
abbrev S8x4096x1 : Shape := ⟨3, ![8, 4096, 1]⟩
abbrev S8x1x4096 : Shape := ⟨3, ![8, 1, 4096]⟩

abbrev nBuf : Space → Nat
  | .hbm => 74
  | .vmem => 0
  | .smem => 0
  | _ => 0

abbrev bufTy : (tb : Table) → Fin (tcTables nBuf tb) → BufTy
  | .hbm, ⟨0, _⟩ => ⟨S8x3x3, .f32⟩
  | .hbm, ⟨1, _⟩ => ⟨S8x3, .f32⟩
  | .hbm, ⟨2, _⟩ => ⟨S8, .f32⟩
  | .hbm, ⟨3, _⟩ => ⟨S8x3x3, .f32⟩
  | .hbm, ⟨4, _⟩ => ⟨S8x3, .f32⟩
  | .hbm, ⟨5, _⟩ => ⟨S8, .f32⟩
  | .hbm, ⟨6, _⟩ => ⟨S8x4096x3, .f32⟩
  | .hbm, ⟨7, _⟩ => ⟨S8x4096x3, .f32⟩
  | .hbm, ⟨8, _⟩ => ⟨S3x3, .i32⟩
  | .hbm, ⟨9, _⟩ => ⟨S3x3, .i32⟩
  | .hbm, ⟨10, _⟩ => ⟨S_, .i32⟩
  | .hbm, ⟨11, _⟩ => ⟨S3x3, .i32⟩
  | .hbm, ⟨12, _⟩ => ⟨S3x3, .i32⟩
  | .hbm, ⟨13, _⟩ => ⟨S3x3, .i1⟩
  | .hbm, ⟨14, _⟩ => ⟨S3x3, .f32⟩
  | .hbm, ⟨15, _⟩ => ⟨S8x3x3, .f32⟩
  | .hbm, ⟨16, _⟩ => ⟨S1x3x3, .f32⟩
  | .hbm, ⟨17, _⟩ => ⟨S8x3x3, .f32⟩
  | .hbm, ⟨18, _⟩ => ⟨S8x3x3, .f32⟩
  | .hbm, ⟨19, _⟩ => ⟨S8x3x3, .f32⟩
  | .hbm, ⟨20, _⟩ => ⟨S_, .f32⟩
  | .hbm, ⟨21, _⟩ => ⟨S8, .f32⟩
  | .hbm, ⟨22, _⟩ => ⟨S8x3, .f32⟩
  | .hbm, ⟨23, _⟩ => ⟨S8x3, .f32⟩
  | .hbm, ⟨24, _⟩ => ⟨S_, .f32⟩
  | .hbm, ⟨25, _⟩ => ⟨S8, .f32⟩
  | .hbm, ⟨26, _⟩ => ⟨S8, .f32⟩
  | .hbm, ⟨27, _⟩ => ⟨S8, .f32⟩
  | .hbm, ⟨28, _⟩ => ⟨S8, .f32⟩
  | .hbm, ⟨29, _⟩ => ⟨S8, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S8x4096x3, .f32⟩
  | .hbm, ⟨35, _⟩ => ⟨S_, .f32⟩
  | .hbm, ⟨36, _⟩ => ⟨S8x4096, .f32⟩
  | .hbm, ⟨37, _⟩ => ⟨S8x4096x3, .f32⟩
  | .hbm, ⟨38, _⟩ => ⟨S_, .f32⟩
  | .hbm, ⟨39, _⟩ => ⟨S8x4096, .f32⟩
  | .hbm, ⟨40, _⟩ => ⟨S8x4096x4096, .f32⟩
  | .hbm, ⟨41, _⟩ => ⟨S8x4096x1, .f32⟩
  | .hbm, ⟨42, _⟩ => ⟨S8x1x4096, .f32⟩
  | .hbm, ⟨43, _⟩ => ⟨S8x4096x4096, .f32⟩
  | .hbm, ⟨44, _⟩ => ⟨S8x4096x4096, .f32⟩
  | .hbm, ⟨45, _⟩ => ⟨S8x4096x4096, .f32⟩
  | .hbm, ⟨46, _⟩ => ⟨S_, .f32⟩
  | .hbm, ⟨47, _⟩ => ⟨S8x4096x4096, .f32⟩
  | .hbm, ⟨48, _⟩ => ⟨S8x4096x4096, .f32⟩
  | .hbm, ⟨49, _⟩ => ⟨S8x4096x4096, .f32⟩
  | .hbm, ⟨50, _⟩ => ⟨S_, .f32⟩
  | .hbm, ⟨51, _⟩ => ⟨S8x4096x4096, .f32⟩
  | .hbm, ⟨52, _⟩ => ⟨S8x4096x4096, .f32⟩
  | .hbm, ⟨53, _⟩ => ⟨S8x4096x4096, .f32⟩
  | .hbm, ⟨54, _⟩ => ⟨S_, .f32⟩
  | .hbm, ⟨55, _⟩ => ⟨S8x4096, .f32⟩
  | .hbm, ⟨56, _⟩ => ⟨S_, .f32⟩
  | .hbm, ⟨57, _⟩ => ⟨S8x4096, .f32⟩
  | .hbm, ⟨58, _⟩ => ⟨S_, .f32⟩
  | .hbm, ⟨59, _⟩ => ⟨S8, .f32⟩
  | .hbm, ⟨60, _⟩ => ⟨S_, .f32⟩
  | .hbm, ⟨61, _⟩ => ⟨S8, .f32⟩
  | .hbm, ⟨62, _⟩ => ⟨S8, .f32⟩
  | .hbm, ⟨63, _⟩ => ⟨S_, .f32⟩
  | .hbm, ⟨64, _⟩ => ⟨S8, .f32⟩
  | .hbm, ⟨65, _⟩ => ⟨S_, .f32⟩
  | .hbm, ⟨66, _⟩ => ⟨S8, .f32⟩
  | .hbm, ⟨67, _⟩ => ⟨S8, .f32⟩
  | .hbm, ⟨68, _⟩ => ⟨S8, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | _, _ => ⟨S8x3x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_1 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_cst_8 : Ref sig .tc := ⟨.hbm, 56, rfl⟩
abbrev main_v38 : Ref sig .tc := ⟨.hbm, 57, rfl⟩
abbrev main_cst_9 : Ref sig .tc := ⟨.hbm, 58, rfl⟩
abbrev main_v39 : Ref sig .tc := ⟨.hbm, 59, rfl⟩
abbrev main_cst_10 : Ref sig .tc := ⟨.hbm, 60, rfl⟩
abbrev main_v40 : Ref sig .tc := ⟨.hbm, 61, rfl⟩
abbrev main_v41 : Ref sig .tc := ⟨.hbm, 62, rfl⟩
abbrev main_cst_11 : Ref sig .tc := ⟨.hbm, 63, rfl⟩
abbrev main_v42 : Ref sig .tc := ⟨.hbm, 64, rfl⟩
abbrev main_cst_12 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_13 : Ref sig .tc := ⟨.hbm, 69, rfl⟩
abbrev main_v46 : Ref sig .tc := ⟨.hbm, 70, rfl⟩
abbrev main_cst_14 : Ref sig .tc := ⟨.hbm, 71, rfl⟩
abbrev main_v47 : Ref sig .tc := ⟨.hbm, 72, rfl⟩
abbrev main_v48 : Ref sig .tc := ⟨.hbm, 73, rfl⟩

abbrev nD : Nat := 1
abbrev τ : Topo := Topo.v7x

variable {F : FTy → Type} [FloatOps F]

class Facts₀ : Prop where
  bcast_S_S3x3 : S_.BroadcastsInDim S3x3 (![] : Fin 0 → Fin S3x3.rank)
  bcast_S3x3_S1x3x3_1_2 : S3x3.BroadcastsInDim S1x3x3 (![1, 2] : Fin 2 → Fin S1x3x3.rank)
  bcast_S1x3x3_S8x3x3_0_1_2 : S1x3x3.BroadcastsInDim S8x3x3 (![0, 1, 2] : Fin 3 → Fin S8x3x3.rank)
  reducesTo_S8x3x3_S8_d1_2 : S8x3x3.ReducesTo [1, 2] S8
  h_S_ : 0 < S_.numel
  reducesTo_S8x3_S8_d1 : S8x3.ReducesTo [1] S8
  reducesTo_S8_S_d0 : S8.ReducesTo [0] S_
  reducesTo_S8x4096x3_S8x4096_d2 : S8x4096x3.ReducesTo [2] S8x4096
  bcast_S8x4096_S8x4096x1_0_1 : S8x4096.BroadcastsInDim S8x4096x1 (![0, 1] : Fin 2 → Fin S8x4096x1.rank)
  bcast_S8x4096_S8x1x4096_0_2 : S8x4096.BroadcastsInDim S8x1x4096 (![0, 2] : Fin 2 → Fin S8x1x4096.rank)
  bcast_S8x4096x1_S8x4096x4096_0_1_2 : S8x4096x1.BroadcastsInDim S8x4096x4096 (![0, 1, 2] : Fin 3 → Fin S8x4096x4096.rank)
  bcast_S8x1x4096_S8x4096x4096_0_1_2 : S8x1x4096.BroadcastsInDim S8x4096x4096 (![0, 1, 2] : Fin 3 → Fin S8x4096x4096.rank)
  bcast_S_S8x4096x4096 : S_.BroadcastsInDim S8x4096x4096 (![] : Fin 0 → Fin S8x4096x4096.rank)
  reducesTo_S8x4096x4096_S8x4096_d2 : S8x4096x4096.ReducesTo [2] S8x4096
  reducesTo_S8x4096x4096_S8x4096_d1 : S8x4096x4096.ReducesTo [1] S8x4096
  reducesTo_S8x4096_S8_d1 : S8x4096.ReducesTo [1] S8
  bcast_S_S8 : S_.BroadcastsInDim S8 (![] : Fin 0 → Fin S8.rank)
  dot_S8x3x3_S8x3x3_S8x3x3_1_1_2_2_0_0_wf : DotDims.WF S8x3x3 S8x3x3 S8x3x3 [1] [1] [2] [2] [0] [0]
  dot_S8x4096x3_S8x4096x3_S8x4096x4096_2_2_1_1_0_0_wf : DotDims.WF S8x4096x3 S8x4096x3 S8x4096x4096 [2] [2] [1] [1] [0] [0]

variable [Facts₀]

def dot_S8x3x3_S8x3x3_S8x3x3_1_1_2_2_0_0 : DotDims S8x3x3 S8x3x3 S8x3x3 where
  lhsContracting := [1]
  rhsContracting := [1]
  lhsNonContracting := [2]
  rhsNonContracting := [2]
  lhsBatch := [0]
  rhsBatch := [0]
  wf := dot_S8x3x3_S8x3x3_S8x3x3_1_1_2_2_0_0_wf
def dot_S8x4096x3_S8x4096x3_S8x4096x4096_2_2_1_1_0_0 : DotDims S8x4096x3 S8x4096x3 S8x4096x4096 where
  lhsContracting := [2]
  rhsContracting := [2]
  lhsNonContracting := [1]
  rhsNonContracting := [1]
  lhsBatch := [0]
  rhsBatch := [0]
  wf := dot_S8x4096x3_S8x4096x3_S8x4096x4096_2_2_1_1_0_0_wf

class Facts : Prop extends Facts₀ where

variable [Facts]
-- ==== Proof.Spec.lean ====
/-
  The mathematics both programs share, stated once over the extended reals.

  A point of the cloud is a row of three coordinates. The distance of two rows is computed by the
  expansion |x|² + |y|² − 2·(x·y), clamped at zero before the square root; nothing here depends on
  how the rows are laid out in memory. A minimum over a finite family is carried by its universal
  property (the greatest lower bound), so that regrouping a minimum into tiles, or folding it in
  another order, is a statement about quantifiers and not about folds.
-/
import Idealize.ShloMosaic.PureOps.Ideal
import Idealize.ShloMosaic.PureOps.Ideal.Laws
import Idealize.ShloMosaic.Lib.ValueIdx

noncomputable section

namespace Cert.Chamfer

open Idealize.ShloMosaic
open scoped BigOperators

/-- The clamped Euclidean distance of two rows of three extended reals:
    √(max(|x|² + |y|² − 2·(x·y), 0)), the literals 2 and 0 kept as their binary words. -/
def dist3 (x y : Fin 3 → EReal) : EReal :=
  Ideal.sqrt (max (((∑ k : Fin 3, x k * x k) + (∑ k : Fin 3, y k * y k))
      - Ideal.ofBits .f32 0x40000000#32 * (∑ k : Fin 3, x k * y k)) (Ideal.ofBits .f32 0x00000000#32))

/-- Row `n` of batch `b` of a cloud of 8 × 4096 points: its three coordinates. -/
abbrev row (X : (⟨3, ![8, 4096, 3]⟩ : Shape).Idx → EReal) (b : Fin 8) (n : Fin 4096) : Fin 3 → EReal :=
  fun k => X (ValueIdx.ix3 b n k)

/-- `v` is the greatest lower bound of the family `f`: the lower bounds of `v` are the common
    lower bounds of the family. -/
def IsMinOf {ι : Type} (v : EReal) (f : ι → EReal) : Prop := ∀ c : EReal, c ≤ v ↔ ∀ i, c ≤ f i

/-- A greatest lower bound is unique. -/
theorem IsMinOf.unique {ι : Type} {v v' : EReal} {f : ι → EReal} (h : IsMinOf v f) (h' : IsMinOf v' f) :
    v = v' :=
  eq_of_forall_le_iff fun c => (h c).trans (h' c).symm

/-- The binary word of +∞ is the top of the extended reals. -/
theorem ofBits_inf : Ideal.ofBits .f32 0x7F800000#32 = ⊤ := by simp [Ideal.ofBits, Ideal.ieee]

/-- The fold of `min` from +∞ over a whole finite index type is the family's greatest lower bound. -/
theorem isMinOf_fold {ι : Type} [Fintype ι] (f : ι → EReal) :
    IsMinOf ((Finset.univ : Finset ι).fold min (Ideal.ofBits .f32 0x7F800000#32) f) f := fun c => by
  rw [Finset.le_fold_min, ofBits_inf]
  exact ⟨fun h i => h.2 i (Finset.mem_univ i), fun h => ⟨le_top, fun i _ => h i⟩⟩

/-- The same fold read through a re-indexing `g` of the family. -/
theorem isMinOf_fold_comp {ι κ : Type} [Fintype ι] (src : κ → EReal) (g : ι → κ) :
    IsMinOf ((Finset.univ : Finset ι).fold min (Ideal.ofBits .f32 0x7F800000#32) (src ∘ g)) (fun i => src (g i)) :=
  isMinOf_fold (src ∘ g)

/-- A greatest lower bound of a family is one of any family equal to it pointwise. -/
theorem IsMinOf.congr {ι : Type} {v : EReal} {f g : ι → EReal} (h : IsMinOf v f) (e : ∀ i, f i = g i) : IsMinOf v g :=
  fun c => (h c).trans (forall_congr' fun i => by rw [e i])

/-- The minimum of +∞ and a greatest lower bound is that greatest lower bound. -/
theorem IsMinOf.min_top {ι : Type} {v : EReal} {f : ι → EReal} (h : IsMinOf v f) :
    IsMinOf (min (Ideal.ofBits .f32 0x7F800000#32) v) f := fun c => by
  rw [ofBits_inf, le_min_iff]
  exact ⟨fun hc => (h c).1 hc.2, fun hc => ⟨le_top, (h c).2 hc⟩⟩

end Cert.Chamfer

end
-- ==== Proof.Layout.lean ====
/-
  Small facts about re-laid vectors and one-axis minimum reductions, read at an index.

  A column of length a seen as an [a, 1] matrix, and such a column spread over b columns, read
  where one expects. A minimum reduction over one axis, started from +∞ — the vector unit's or the
  host's — is at each kept index the greatest lower bound of the source along the reduced axis.
-/
import Idealize.ShloMosaic.PureOps.Ideal.Laws
import Idealize.ShloMosaic.Lib.ValueIdx
import Idealize.ShloMosaic.Lib.ValueLayout
import Idealize.ShloMosaic.Lib.Pipeline.Value
import proofs.«118981_j86792699118042_1_alg».proof.Proof.Spec

noncomputable section

namespace Cert.Chamfer

open Idealize.ShloMosaic Idealize.ShloMosaic.ValueIdx

section Layout
variable {α : Type}

/-- A vector of length `a` cast to an `[a, 1]` column reads, at `(i, u)`, the vector at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

section Reductions

/-- A `multi_reduction <minimumf>` over one axis, started from +∞: at a kept index `j` its value is the
    greatest lower bound of the source along the reduced axis. -/
theorem multiReduction_minimumf_isMinOf {s t : Shape} {a : Fin s.rank} (src : FVec Ideal s .f32)
    (h : s.Reduces [a] t) (hφ : FKind.Formats .f32)
    (hacc : (0x7F800000#32 : BitVec (FTy.bits .f32)) = FKind.minimumf.neutral .f32 hφ) (j : t.Idx) :
    IsMinOf (multiReduction .minimumf [a] t src 0x7F800000#32 h hφ hacc j)
      (fun k : Fin (s.size a) => src (h.lift j k)) := by
  rw [multiReduction_minimumf_eq_fold, h.fold_filter_drop_single]
  exact isMinOf_fold_comp src (h.lift j)

/-- The host's one-operand reduce with a `minimum` body over one axis, from an initial value that is +∞:
    at a kept index `j` its value is the greatest lower bound of the operand along the reduced axis. -/
theorem hostReduce_minimumf_isMinOf {s t u : Shape} {a : Fin s.rank} (x : s.Idx → Ideal .f32)
    (init : u.Idx → Ideal .f32) (h' : s.ReducesTo [a] t) (h : s.Reduces [a] t) (hu : 0 < u.numel)
    (hinit : init (Shape.Idx.first hu) = Ideal.ofBits .f32 0x7F800000#32) (j : t.Idx) :
    IsMinOf (Host.reduce (FloatOps.minimumf (F := Ideal) (φ := .f32)) x init h' hu j)
      (fun k : Fin (s.size a) => x (h.lift j k)) := by
  rw [Host.reduce_eq_fold_single _ x init h' h hu j, hinit]
  exact isMinOf_fold_comp x (h.lift j)

end Reductions

end Cert.Chamfer

end
-- ==== Proof.Payload.lean ====
/-
  The body's arithmetic at an index.

  One grid point sees a whole cloud X (4096 rows) and one tile of 256 rows of the cloud Y. The body
  forms, for row n of X and row j of the tile, the clamped distance of the two rows; then the
  minimum of each row of that 4096 × 256 table (over the tile) and of each column (over all of X).
  The row minima are folded into a running minimum kept between grid points; the column minima are
  final and are written out as a column.
-/
import proofs.«118981_j86792699118042_1_alg».proof.Proof.Gen.KernelIdeal.Skeleton
import proofs.«118981_j86792699118042_1_alg».proof.Proof.Layout

noncomputable section

namespace Cert.Chamfer

open Cert.KernelIdeal Cert.KernelIdeal.Gen Idealize.ShloMosaic Idealize.ShloMosaic.ValueIdx
open scoped BigOperators

/-- Row `n` of the resident block of X: its three coordinates. -/
abbrev xrow (x0 : Vec Ideal S1x4096x3 .f32) (n : Fin 4096) : Fin 3 → EReal := fun k => x0 (ix3 (0 : Fin 1) n k)

/-- Row `j` of the current tile of Y: its three coordinates. -/
abbrev yrow (x1 : Vec Ideal S1x256x3 .f32) (j : Fin 256) : Fin 3 → EReal := fun k => x1 (ix3 (0 : Fin 1) j k)

/-- The squared length of row `n` of a 4096 × 3 matrix, as the lane sum computes it. -/
theorem sumsq_cols (v : FVec Ideal S4096x3 .f32) (h : S4096x3.Reduces [1] S4096)
    (hacc : (0x00000000#32 : BitVec 32) = 0x00000000#32) (n : Fin 4096) :
    multiReduction .add [1] S4096 (mulf v v) 0x00000000#32 h (.inl rfl) hacc (ix1 n) = ∑ k : Fin 3, v (ix2 n k) * v (ix2 n k) := by
  refine (Ideal.multiReduction_add_single (mulf v v) 0x00000000#32 h (.inl rfl) hacc (ix1 n)).trans ?_
  refine Finset.sum_congr rfl fun k _ => ?_
  have e : h.lift (ix1 n) k = ix2 n k := funext fun a => Fin.ext (by match a with | ⟨0, _⟩ => rfl | ⟨1, _⟩ => rfl)
  rw [e]; rfl

/-- The squared length of column `j` of a 3 × 256 matrix, as the sublane sum computes it. -/
theorem sumsq_rows (v : FVec Ideal S3x256 .f32) (h : S3x256.Reduces [0] S256)
    (hacc : (0x00000000#32 : BitVec 32) = 0x00000000#32) (j : Fin 256) :
    multiReduction .add [0] S256 (mulf v v) 0x00000000#32 h (.inl rfl) hacc (ix1 j) = ∑ k : Fin 3, v (ix2 k j) * v (ix2 k j) := by
  refine (Ideal.multiReduction_add_single (mulf v v) 0x00000000#32 h (.inl rfl) hacc (ix1 j)).trans ?_
  refine Finset.sum_congr rfl fun k _ => ?_
  have e : h.lift (ix1 j) k = ix2 k j := funext fun a => Fin.ext (by match a with | ⟨0, _⟩ => rfl | ⟨1, _⟩ => rfl)
  rw [e]; rfl

/-- The distance table of a grid point: entry (n, j) is the clamped distance of row `n` of X and row `j` of the
    tile of Y. The cross term, three products added left to right, is the three-term sum. -/
theorem pay5_apply (x0 : Vec Ideal S1x4096x3 .f32) (x1 : Vec Ideal S1x256x3 .f32) (n : Fin 4096) (j : Fin 256) :
    k0_pay5 (F := Ideal) x0 x1 (ix2 n j) = dist3 (xrow x0 n) (yrow x1 j) := by
  unfold k0_pay5 dist3
  dsimp only
  simp only [Idealize.ShloMosaic.sqrt, maximumf_apply, subf_apply, addf_apply, mulf_apply,
    broadcast_apply, broadcastTo_a1_ab_apply, broadcastTo_1b_ab_apply, shapeCast_a_a1_apply, shapeCast_a_1a_apply]
  rw [sumsq_cols, sumsq_rows]
  simp only [slice2_axis1_eq, slice2_axis0_eq, transpose_ix2_apply, shapeCast_1ab_ab_apply, Fin.sum_univ_three,
    Ideal.sqrt_def, Ideal.ofBits_def]
  have hT : ∀ k : Fin 3, transpose S3x256 [1, 0] (shapeCast S256x3 x1 shapeCasts_S1x256x3_S256x3)
      transposes_S256x3_p1_0_S3x256 (ix2 k j) = x1 (ix3 (0 : Fin 1) j k) :=
    fun k => (transpose_ix2_apply _ _ k j).trans (shapeCast_1ab_ab_apply x1 _ j k)
  simp only [hT]
  rfl

/-- The row minima of the distance table: entry `n` of the column the body folds into its running minimum is
    the least distance from row `n` of X to a row of the tile. -/
theorem pay6_isMinOf (x0 : Vec Ideal S1x4096x3 .f32) (x1 : Vec Ideal S1x256x3 .f32) (n : Fin 4096) (u : Fin 1) :
    IsMinOf (k0_pay6 (F := Ideal) x0 x1 (ix2 n u)) (fun j : Fin 256 => dist3 (xrow x0 n) (yrow x1 j)) := by
  unfold k0_pay6
  dsimp only
  rw [shapeCast_a_a1_apply]
  refine (multiReduction_minimumf_isMinOf (k0_pay5 (F := Ideal) x0 x1) reduces_S4096x256_S4096 (.inl rfl) rfl (ix1 n)).congr
    fun j => ?_
  have e : reduces_S4096x256_S4096.lift (ix1 n) j = ix2 n j :=
    funext fun a => Fin.ext (by match a with | ⟨0, _⟩ => rfl | ⟨1, _⟩ => rfl)
  rw [e]
  exact pay5_apply x0 x1 n j

/-- The column minima of the distance table: entry `j` is the least distance from a row of X to row `j` of the
    tile; X being whole at every grid point, this minimum is final. -/
theorem pay7_isMinOf (x0 : Vec Ideal S1x4096x3 .f32) (x1 : Vec Ideal S1x256x3 .f32) (j : Fin 256) :
    IsMinOf (k0_pay7 (F := Ideal) x0 x1 (ix1 j)) (fun n : Fin 4096 => dist3 (xrow x0 n) (yrow x1 j)) := by
  unfold k0_pay7
  dsimp only
  refine (multiReduction_minimumf_isMinOf (k0_pay5 (F := Ideal) x0 x1) reduces_S4096x256_S256 (.inl rfl) rfl (ix1 j)).congr
    fun n => ?_
  have e : reduces_S4096x256_S256.lift (ix1 j) n = ix2 n j :=
    funext fun a => Fin.ext (by match a with | ⟨0, _⟩ => rfl | ⟨1, _⟩ => rfl)
  rw [e]
  exact pay5_apply x0 x1 n j

/-- The running-minimum update: entrywise the lesser of what the scratch held and the tile's row minimum. -/
theorem pay1_apply (v41 : FVec Ideal S4096x1 .f32) (v44 : Vec Ideal S4096x1 .f32) (i : S4096x1.Idx) :
    k0_pay1 (F := Ideal) v41 v44 i = min (v44 i) (v41 i) := by
  unfold k0_pay1
  rw [shapeCast_self]
  rfl

/-- The reset value of the running minimum: +∞ in every entry. -/
theorem pay4_apply (i : S4096x1.Idx) : k0_pay4 (F := Ideal) i = Ideal.ofBits .f32 0x7F800000#32 := by
  unfold k0_pay4
  rw [shapeCast_self]
  rfl

/-- The column minima laid out as the output block: a 256-vector written as a [1, 256, 1] column. -/
theorem pay2_apply (v42 : FVec Ideal S256 .f32) (u : Fin 1) (j : Fin 256) (w : Fin 1) :
    k0_pay2 (F := Ideal) v42 (ix3 u j w) = v42 (ix1 j) := by
  unfold k0_pay2
  exact (shapeCast_ab_1ab_apply _ _ u j w).trans
    ((transpose_ix2_apply _ _ j w).trans (shapeCast_a_1a_apply v42 _ w j))

/-- The running minimum laid out as the output block: a [4096, 1] column written as [1, 4096, 1]. -/
theorem pay3_apply (v56 : Vec Ideal S4096x1 .f32) (u : Fin 1) (n : Fin 4096) (w : Fin 1) :
    k0_pay3 (F := Ideal) v56 (ix3 u n w) = v56 (ix2 n w) := by
  unfold k0_pay3
  exact shapeCast_ab_1ab_apply _ _ u n w

end Cert.Chamfer

end
-- ==== Proof.Pieces.lean ====
/-
  What one grid point leaves behind, case by case.

  The body has three control cases. At the first tile of a batch it resets the running minimum to
  +∞ before folding the tile in; at a middle tile it folds the tile into what the point before
  left; at the last tile it does the same and copies the finished running minimum to its output
  block. At every point it writes the tile's column minima to the other output block. Each lemma
  says that what the run found in a buffer is the corresponding pure term of the loaded blocks.
-/
import proofs.«118981_j86792699118042_1_alg».proof.Proof.Gen.KernelIdeal.Frame
import Idealize.ShloMosaic.Lib.Pipeline.Value

set_option maxRecDepth 16384

noncomputable section

namespace Cert.KernelIdeal.Pieces

open Cert.KernelIdeal Cert.KernelIdeal.Gen Idealize.ShloMosaic Idealize.ShloMosaic.Tactic

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- First tile of a batch: the running minimum is reset to +∞ and the tile's row minima folded in. -/
theorem sout_A (c : Dev nD) (i : grid0.Coords) (arg2 : Memref sig .tc .vmem S1x4096x3 .f32) (harg2 : arg2.IsWhole) (arg3 : Memref sig .tc .vmem S1x256x3 .f32) (harg3 : arg3.IsWhole) (arg4 : Memref sig .tc .vmem S1x4096x1 .f32) (harg4 : arg4.IsWhole) (arg5 : Memref sig .tc .vmem S1x256x1 .f32) (harg5 : arg5.IsWhole) (arg6 : Memref sig .tc .vmem S4096x1 .f32) (harg6 : arg6.IsWhole) (hc0 : cond0_0 i) (hc1 : ¬cond0_1 i)
    (x0 : Vec F S1x4096x3 .f32) (x1 : Vec F S1x256x3 .f32) :
    sout0_A_0 (F := F) c i arg2 harg2 arg3 harg3 arg4 harg4 arg5 harg5 arg6 harg6 hc0 hc1 x0 x1 = k0_pay1 (k0_pay6 x0 x1) (k0_pay4 (F := F)) := by
  unfold sout0_A_0
  rw [View.read_writes_eq_canon _ _ _ (scover0_A_0 c i arg2 harg2 arg3 harg3 arg4 harg4 arg5 harg5 arg6 harg6 hc0 hc1 x0 x1)]
  unfold kernelRun0_A
  dsimp only
  sl_unfold_words
  rw [View.canon_cons_unit_zero (S := S4096x1) hz2, View.readCov_unit_zero (S := S4096x1) _ hz2]
  simp only [View.readAt_eq_ld, harg2.read_unread, harg3.read_unread, harg6.read_unread,
    View.ld_unit_zero (S := S4096x1) hz2, View.ld_unit_zero (S := S1x4096x3) hz3, View.ld_unit_zero (S := S1x256x3) hz3]

/-- A middle tile: the tile's row minima folded into what the point before left. -/
theorem sout_B (c : Dev nD) (i : grid0.Coords) (arg2 : Memref sig .tc .vmem S1x4096x3 .f32) (harg2 : arg2.IsWhole) (arg3 : Memref sig .tc .vmem S1x256x3 .f32) (harg3 : arg3.IsWhole) (arg4 : Memref sig .tc .vmem S1x4096x1 .f32) (harg4 : arg4.IsWhole) (arg5 : Memref sig .tc .vmem S1x256x1 .f32) (harg5 : arg5.IsWhole) (arg6 : Memref sig .tc .vmem S4096x1 .f32) (harg6 : arg6.IsWhole) (hc0 : ¬cond0_0 i) (hc1 : ¬cond0_1 i)
    (x0 : Vec F S1x4096x3 .f32) (x1 : Vec F S1x256x3 .f32) (xs0 : Vec F S4096x1 .f32) :
    sout0_B_0 (F := F) c i arg2 harg2 arg3 harg3 arg4 harg4 arg5 harg5 arg6 harg6 hc0 hc1 x0 x1 xs0 = k0_pay1 (k0_pay6 x0 x1) xs0 := by
  unfold sout0_B_0
  rw [View.read_writes_eq_canon _ _ _ (scover0_B_0 c i arg2 harg2 arg3 harg3 arg4 harg4 arg5 harg5 arg6 harg6 hc0 hc1 x0 x1 xs0)]
  unfold kernelRun0_B
  dsimp only
  sl_unfold_words
  rw [View.canon_unit_zero hz2]
  simp only [View.readAt_eq_ld, harg2.read_unread, harg3.read_unread, harg6.read_unread,
    View.ld_unit_zero (S := S4096x1) hz2, View.ld_unit_zero (S := S1x4096x3) hz3, View.ld_unit_zero (S := S1x256x3) hz3]

/-- The last tile: the same fold. -/
theorem sout_C (c : Dev nD) (i : grid0.Coords) (arg2 : Memref sig .tc .vmem S1x4096x3 .f32) (harg2 : arg2.IsWhole) (arg3 : Memref sig .tc .vmem S1x256x3 .f32) (harg3 : arg3.IsWhole) (arg4 : Memref sig .tc .vmem S1x4096x1 .f32) (harg4 : arg4.IsWhole) (arg5 : Memref sig .tc .vmem S1x256x1 .f32) (harg5 : arg5.IsWhole) (arg6 : Memref sig .tc .vmem S4096x1 .f32) (harg6 : arg6.IsWhole) (hc0 : ¬cond0_0 i) (hc1 : cond0_1 i)
    (x0 : Vec F S1x4096x3 .f32) (x1 : Vec F S1x256x3 .f32) (xs0 : Vec F S4096x1 .f32) :
    sout0_C_0 (F := F) c i arg2 harg2 arg3 harg3 arg4 harg4 arg5 harg5 arg6 harg6 hc0 hc1 x0 x1 xs0 = k0_pay1 (k0_pay6 x0 x1) xs0 := by
  unfold sout0_C_0
  rw [View.read_writes_eq_canon _ _ _ (scover0_C_0 c i arg2 harg2 arg3 harg3 arg4 harg4 arg5 harg5 arg6 harg6 hc0 hc1 x0 x1 xs0)]
  unfold kernelRun0_C
  dsimp only
  sl_unfold_words
  rw [View.canon_unit_zero hz2]
  simp only [View.readAt_eq_ld, harg2.read_unread, harg3.read_unread, harg6.read_unread,
    View.ld_unit_zero (S := S4096x1) hz2, View.ld_unit_zero (S := S1x4096x3) hz3, View.ld_unit_zero (S := S1x256x3) hz3]

/-- The last tile also copies the finished running minimum to the first output's block. -/
theorem out2_C (c : Dev nD) (i : grid0.Coords) (arg2 : Memref sig .tc .vmem S1x4096x3 .f32) (harg2 : arg2.IsWhole) (arg3 : Memref sig .tc .vmem S1x256x3 .f32) (harg3 : arg3.IsWhole) (arg4 : Memref sig .tc .vmem S1x4096x1 .f32) (harg4 : arg4.IsWhole) (arg5 : Memref sig .tc .vmem S1x256x1 .f32) (harg5 : arg5.IsWhole) (arg6 : Memref sig .tc .vmem S4096x1 .f32) (harg6 : arg6.IsWhole) (hc0 : ¬cond0_0 i) (hc1 : cond0_1 i)
    (x0 : Vec F S1x4096x3 .f32) (x1 : Vec F S1x256x3 .f32) (xs0 : Vec F S4096x1 .f32) :
    out0_C_2 (F := F) c i arg2 harg2 arg3 harg3 arg4 harg4 arg5 harg5 arg6 harg6 hc0 hc1 x0 x1 xs0 = k0_pay3 (k0_pay1 (k0_pay6 x0 x1) xs0) := by
  unfold out0_C_2
  rw [View.read_writes_eq_canon _ _ _ (cover0_C_2 c i arg2 harg2 arg3 harg3 arg4 harg4 arg5 harg5 arg6 harg6 hc0 hc1 x0 x1 xs0)]
  unfold kernelRun0_C
  dsimp only
  sl_unfold_words
  rw [View.canon_unit_zero hz3]
  simp only [View.readAt_eq_ld, harg2.read_unread, harg3.read_unread, harg6.read_unread,
    View.ld_unit_zero (S := S4096x1) hz2, View.ld_unit_zero (S := S1x4096x3) hz3, View.ld_unit_zero (S := S1x256x3) hz3,
    View.readCov_unit_zero (S := S4096x1) _ hz2]

/-- Every case writes the tile's column minima to the second output's block. -/
theorem out3_A (c : Dev nD) (i : grid0.Coords) (arg2 : Memref sig .tc .vmem S1x4096x3 .f32) (harg2 : arg2.IsWhole) (arg3 : Memref sig .tc .vmem S1x256x3 .f32) (harg3 : arg3.IsWhole) (arg4 : Memref sig .tc .vmem S1x4096x1 .f32) (harg4 : arg4.IsWhole) (arg5 : Memref sig .tc .vmem S1x256x1 .f32) (harg5 : arg5.IsWhole) (arg6 : Memref sig .tc .vmem S4096x1 .f32) (harg6 : arg6.IsWhole) (hc0 : cond0_0 i) (hc1 : ¬cond0_1 i)
    (x0 : Vec F S1x4096x3 .f32) (x1 : Vec F S1x256x3 .f32) :
    out0_A_3 (F := F) c i arg2 harg2 arg3 harg3 arg4 harg4 arg5 harg5 arg6 harg6 hc0 hc1 x0 x1 = k0_pay2 (k0_pay7 x0 x1) := by
  unfold out0_A_3
  rw [View.read_writes_eq_canon _ _ _ (cover0_A_3 c i arg2 harg2 arg3 harg3 arg4 harg4 arg5 harg5 arg6 harg6 hc0 hc1 x0 x1)]
  unfold kernelRun0_A
  dsimp only
  sl_unfold_words
  rw [View.canon_unit_zero hz3]
  simp only [View.readAt_eq_ld, harg2.read_unread, harg3.read_unread, harg6.read_unread,
    View.ld_unit_zero (S := S4096x1) hz2, View.ld_unit_zero (S := S1x4096x3) hz3, View.ld_unit_zero (S := S1x256x3) hz3]

theorem out3_B (c : Dev nD) (i : grid0.Coords) (arg2 : Memref sig .tc .vmem S1x4096x3 .f32) (harg2 : arg2.IsWhole) (arg3 : Memref sig .tc .vmem S1x256x3 .f32) (harg3 : arg3.IsWhole) (arg4 : Memref sig .tc .vmem S1x4096x1 .f32) (harg4 : arg4.IsWhole) (arg5 : Memref sig .tc .vmem S1x256x1 .f32) (harg5 : arg5.IsWhole) (arg6 : Memref sig .tc .vmem S4096x1 .f32) (harg6 : arg6.IsWhole) (hc0 : ¬cond0_0 i) (hc1 : ¬cond0_1 i)
    (x0 : Vec F S1x4096x3 .f32) (x1 : Vec F S1x256x3 .f32) (xs0 : Vec F S4096x1 .f32) :
    out0_B_3 (F := F) c i arg2 harg2 arg3 harg3 arg4 harg4 arg5 harg5 arg6 harg6 hc0 hc1 x0 x1 xs0 = k0_pay2 (k0_pay7 x0 x1) := by
  unfold out0_B_3
  rw [View.read_writes_eq_canon _ _ _ (cover0_B_3 c i arg2 harg2 arg3 harg3 arg4 harg4 arg5 harg5 arg6 harg6 hc0 hc1 x0 x1 xs0)]
  unfold kernelRun0_B
  dsimp only
  sl_unfold_words
  rw [View.canon_unit_zero hz3]
  simp only [View.readAt_eq_ld, harg2.read_unread, harg3.read_unread, harg6.read_unread,
    View.ld_unit_zero (S := S4096x1) hz2, View.ld_unit_zero (S := S1x4096x3) hz3, View.ld_unit_zero (S := S1x256x3) hz3]

theorem out3_C (c : Dev nD) (i : grid0.Coords) (arg2 : Memref sig .tc .vmem S1x4096x3 .f32) (harg2 : arg2.IsWhole) (arg3 : Memref sig .tc .vmem S1x256x3 .f32) (harg3 : arg3.IsWhole) (arg4 : Memref sig .tc .vmem S1x4096x1 .f32) (harg4 : arg4.IsWhole) (arg5 : Memref sig .tc .vmem S1x256x1 .f32) (harg5 : arg5.IsWhole) (arg6 : Memref sig .tc .vmem S4096x1 .f32) (harg6 : arg6.IsWhole) (hc0 : ¬cond0_0 i) (hc1 : cond0_1 i)
    (x0 : Vec F S1x4096x3 .f32) (x1 : Vec F S1x256x3 .f32) (xs0 : Vec F S4096x1 .f32) :
    out0_C_3 (F := F) c i arg2 harg2 arg3 harg3 arg4 harg4 arg5 harg5 arg6 harg6 hc0 hc1 x0 x1 xs0 = k0_pay2 (k0_pay7 x0 x1) := by
  unfold out0_C_3
  rw [View.read_writes_eq_canon _ _ _ (cover0_C_3 c i arg2 harg2 arg3 harg3 arg4 harg4 arg5 harg5 arg6 harg6 hc0 hc1 x0 x1 xs0)]
  unfold kernelRun0_C
  dsimp only
  sl_unfold_words
  rw [View.canon_unit_zero hz3]
  simp only [View.readAt_eq_ld, harg2.read_unread, harg3.read_unread, harg6.read_unread,
    View.ld_unit_zero (S := S4096x1) hz2, View.ld_unit_zero (S := S1x4096x3) hz3, View.ld_unit_zero (S := S1x256x3) hz3]

end Cert.KernelIdeal.Pieces

end
-- ==== Proof.Blocks.lean ====
/-
  Blocks read off the arrays.

  Grid point t = 16·b + s works on batch b and on tile s of the cloud Y. Its block of X is the whole
  4096 × 3 slab of batch b; its block of Y is rows 256·s … 256·s + 255 of batch b. Both output blocks
  sit at the same places of their arrays. The index maps are decided once over the 128 grid points.
-/
import proofs.«118981_j86792699118042_1_alg».proof.Proof.Gen.KernelIdeal.Frame
import Idealize.ShloMosaic.Lib.Pipeline.Value
import Idealize.ShloMosaic.Lib.ValueIdx
import proofs.«118981_j86792699118042_1_alg».proof.Proof.Gen.KernelIdeal.Points

set_option maxRecDepth 16384

noncomputable section

namespace Cert.KernelIdeal.Blocks

open Cert.KernelIdeal Cert.KernelIdeal.Gen Idealize.ShloMosaic Idealize.ShloMosaic.ValueIdx

variable {F : FTy → Type} [FloatOps F]
variable (m : (ℓ : Loc nD τ sig) → Buf (Elt F) ℓ)

/-- The cloud X as the region finds it, at its literal type. -/
abbrev xarr (c : Dev nD) : Vec F S8x4096x3 .f32 := V m c main_arg6
/-- The cloud Y as the region finds it. -/
abbrev yarr (c : Dev nD) : Vec F S8x4096x3 .f32 := V m c main_arg7
/-- Point `t`'s block of X. -/
abbrev xblk (c : Dev nD) (t : Fin cfg0.N) : Vec F S1x4096x3 .f32 := iblk m c 0 t
/-- Point `t`'s block of Y. -/
abbrev yblk (c : Dev nD) (t : Fin cfg0.N) : Vec F S1x256x3 .f32 := iblk m c 1 t

/-- The four index maps over the grid: the batch is t / 16 everywhere; the windows tiled along the second cloud
    move with t % 16; the resident ones stay at block 0. -/
theorem idx_facts : ∀ t : Fin cfg0.N,
    win0_0.index t (0 : Fin 3) = t.val / 16 ∧ win0_0.index t (1 : Fin 3) = 0 ∧ win0_0.index t (2 : Fin 3) = 0
    ∧ win0_1.index t (0 : Fin 3) = t.val / 16 ∧ win0_1.index t (1 : Fin 3) = t.val % 16 ∧ win0_1.index t (2 : Fin 3) = 0
    ∧ win0_2.index t (0 : Fin 3) = t.val / 16 ∧ win0_2.index t (1 : Fin 3) = 0 ∧ win0_2.index t (2 : Fin 3) = 0
    ∧ win0_3.index t (0 : Fin 3) = t.val / 16 ∧ win0_3.index t (1 : Fin 3) = t.val % 16 ∧ win0_3.index t (2 : Fin 3) = 0 :=
  (by decide +kernel : ∀ t : Fin grid0.N, _)

/-- Row `n` of point `t`'s block of X is row `n` of batch `t / 16`. -/
theorem xblk_apply (c : Dev nD) (t : Fin cfg0.N) (u : Fin 1) (n : Fin 4096) (k : Fin 3) (b : Fin 8)
    (hb : b.val = t.val / 16) : xblk m c t (ix3 u n k) = xarr m c (ix3 b n k) := by
  obtain ⟨e0, e1, e2, -⟩ := idx_facts t
  show V m c main_arg6 (((cfg0.win 0).blk t).view.emb (ix3 u n k)) = V m c main_arg6 (ix3 b n k)
  refine congrArg _ (funext fun a => Fin.ext ?_)
  match a with
  | ⟨0, _⟩ => show win0_0.index t (0 : Fin 3) * 1 + 1 * u.val = b.val; have := u.isLt; omega
  | ⟨1, _⟩ => show win0_0.index t (1 : Fin 3) * 4096 + 1 * n.val = n.val; omega
  | ⟨2, _⟩ => show win0_0.index t (2 : Fin 3) * 3 + 1 * k.val = k.val; omega

/-- Row `j` of point `t`'s block of Y is row `256·(t % 16) + j` of batch `t / 16`. -/
theorem yblk_apply (c : Dev nD) (t : Fin cfg0.N) (u : Fin 1) (j : Fin 256) (k : Fin 3) (b : Fin 8) (r : Fin 4096)
    (hb : b.val = t.val / 16) (hr : r.val = t.val % 16 * 256 + j.val) :
    yblk m c t (ix3 u j k) = yarr m c (ix3 b r k) := by
  obtain ⟨-, -, -, e0, e1, e2, -⟩ := idx_facts t
  show V m c main_arg7 (((cfg0.win 1).blk t).view.emb (ix3 u j k)) = V m c main_arg7 (ix3 b r k)
  refine congrArg _ (funext fun a => Fin.ext ?_)
  match a with
  | ⟨0, _⟩ => show win0_1.index t (0 : Fin 3) * 1 + 1 * u.val = b.val; have := u.isLt; omega
  | ⟨1, _⟩ => show win0_1.index t (1 : Fin 3) * 256 + 1 * j.val = r.val; omega
  | ⟨2, _⟩ => show win0_1.index t (2 : Fin 3) * 3 + 1 * k.val = k.val; omega

/-- Point `t`'s block of the first output, read off any array function: row `n` of batch `t / 16`. -/
theorem blk2_read (t : Fin cfg0.N) (G : S8x4096x1.Idx → Elt F .f32) (u : Fin 1) (n : Fin 4096) (w : Fin 1) (b : Fin 8)
    (hb : b.val = t.val / 16) : ((cfg0.win 2).blk t).view.read (Elt F) G (ix3 u n w) = G (ix3 b n w) := by
  obtain ⟨-, -, -, -, -, -, e0, e1, e2, -⟩ := idx_facts t
  show G (((cfg0.win 2).blk t).view.emb (ix3 u n w)) = G (ix3 b n w)
  refine congrArg _ (funext fun a => Fin.ext ?_)
  match a with
  | ⟨0, _⟩ => show win0_2.index t (0 : Fin 3) * 1 + 1 * u.val = b.val; have := u.isLt; omega
  | ⟨1, _⟩ => show win0_2.index t (1 : Fin 3) * 4096 + 1 * n.val = n.val; omega
  | ⟨2, _⟩ => show win0_2.index t (2 : Fin 3) * 1 + 1 * w.val = w.val; omega

/-- Point `t`'s block of the second output, read off any array function: row `256·(t % 16) + j` of batch `t / 16`. -/
theorem blk3_read (t : Fin cfg0.N) (G : S8x4096x1.Idx → Elt F .f32) (u : Fin 1) (j : Fin 256) (w : Fin 1) (b : Fin 8)
    (r : Fin 4096) (hb : b.val = t.val / 16) (hr : r.val = t.val % 16 * 256 + j.val) :
    ((cfg0.win 3).blk t).view.read (Elt F) G (ix3 u j w) = G (ix3 b r w) := by
  obtain ⟨-, -, -, -, -, -, -, -, -, e0, e1, e2⟩ := idx_facts t
  show G (((cfg0.win 3).blk t).view.emb (ix3 u j w)) = G (ix3 b r w)
  refine congrArg _ (funext fun a => Fin.ext ?_)
  match a with
  | ⟨0, _⟩ => show win0_3.index t (0 : Fin 3) * 1 + 1 * u.val = b.val; have := u.isLt; omega
  | ⟨1, _⟩ => show win0_3.index t (1 : Fin 3) * 256 + 1 * j.val = r.val; omega
  | ⟨2, _⟩ => show win0_3.index t (2 : Fin 3) * 1 + 1 * w.val = w.val; omega

/-- An index of the first output is in point `t`'s block iff each coordinate is in the block's range on its axis. -/
theorem mem_blk2 (t : Fin cfg0.N) (i : S8x4096x1.Idx) :
    i ∈ ((cfg0.win 2).blk t).view.set ↔ ∀ a : Fin 3, win0_2.index t a * S1x4096x1.size a ≤ (i a).val
      ∧ (i a).val < win0_2.index t a * S1x4096x1.size a + S1x4096x1.size a := by
  show i ∈ ((View.whole main_v21_0).slice (win0_2.rect t)).set ↔ _
  rw [View.set_slice_whole, Rect.mem_set_unit]
  exact Iff.rfl

/-- The same for the second output. -/
theorem mem_blk3 (t : Fin cfg0.N) (i : S8x4096x1.Idx) :
    i ∈ ((cfg0.win 3).blk t).view.set ↔ ∀ a : Fin 3, win0_3.index t a * S1x256x1.size a ≤ (i a).val
      ∧ (i a).val < win0_3.index t a * S1x256x1.size a + S1x256x1.size a := by
  show i ∈ ((View.whole main_v21_1).slice (win0_3.rect t)).set ↔ _
  rw [View.set_slice_whole, Rect.mem_set_unit]
  exact Iff.rfl

/-- Every index of the first output lies in the block of its batch's last point, which writes back. -/
theorem cover2 (i : S8x4096x1.Idx) :
    ∃ t : Fin cfg0.N, (cfg0.win 2).flush t = true ∧ i ∈ ((cfg0.win 2).blk t).view.set := by
  have h0 : (i 0).val < 8 := (i 0).isLt
  have h1 : (i 1).val < 4096 := (i 1).isLt
  have h2 : (i 2).val < 1 := (i 2).isLt
  have hlt : (i 0).val * 16 + 15 < cfg0.N := by have hN : cfg0.N = 128 := N_0; omega
  obtain ⟨t, tv⟩ : ∃ t : Fin cfg0.N, t.val = (i 0).val * 16 + 15 := ⟨⟨_, hlt⟩, rfl⟩
  obtain ⟨-, -, -, -, -, -, e0, e1, e2, -⟩ := idx_facts t
  refine ⟨t, (flush0_2 t).mpr (by omega), ?_⟩
  rw [mem_blk2]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 4096 ≤ (i 1).val ∧ (i 1).val < win0_2.index t (1 : Fin 3) * 4096 + 4096; omega
  | ⟨2, _⟩ => show win0_2.index t (2 : Fin 3) * 1 ≤ (i 2).val ∧ (i 2).val < win0_2.index t (2 : Fin 3) * 1 + 1; omega

/-- Every index of the second output lies in the block of the point of its batch and tile; every point writes back. -/
theorem cover3 (i : S8x4096x1.Idx) :
    ∃ t : Fin cfg0.N, (cfg0.win 3).flush t = true ∧ i ∈ ((cfg0.win 3).blk t).view.set := by
  have h0 : (i 0).val < 8 := (i 0).isLt
  have h1 : (i 1).val < 4096 := (i 1).isLt
  have h2 : (i 2).val < 1 := (i 2).isLt
  have hlt : (i 0).val * 16 + (i 1).val / 256 < cfg0.N := by have hN : cfg0.N = 128 := N_0; omega
  obtain ⟨t, tv⟩ : ∃ t : Fin cfg0.N, t.val = (i 0).val * 16 + (i 1).val / 256 := ⟨⟨_, hlt⟩, rfl⟩
  obtain ⟨-, -, -, -, -, -, -, -, -, e0, e1, e2⟩ := idx_facts t
  refine ⟨t, flush0_3 t, ?_⟩
  rw [mem_blk3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 256 ≤ (i 1).val ∧ (i 1).val < win0_3.index t (1 : Fin 3) * 256 + 256; omega
  | ⟨2, _⟩ => show win0_3.index t (2 : Fin 3) * 1 ≤ (i 2).val ∧ (i 2).val < win0_3.index t (2 : Fin 3) * 1 + 1; omega

end Cert.KernelIdeal.Blocks

end
-- ==== Proof.Acc.lean ====
/-
  The running minimum over the grid, and what the two outputs end holding.

  Position t = 16·b + s of the grid is batch b, tile s. The scratch the body carries holds, after
  position t, for each row r of X the least distance to the rows of Y in tiles 0 … s of batch b: it is
  reset at s = 0 and folded at every s. This is proved by induction on the position, the minimum
  carried as a greatest lower bound: "below everything in tiles 0 … s" is "below everything in tiles
  0 … s − 1" and "below the 256 rows of tile s". At s = 15 the bound ranges over all of Y, and that
  is what the first output's block of batch b receives. The second output's block of (b, s) receives,
  for each row of tile s of Y, the least distance to the rows of X, which is final at once.
-/
import proofs.«118981_j86792699118042_1_alg».proof.Proof.Payload
import proofs.«118981_j86792699118042_1_alg».proof.Proof.Pieces
import proofs.«118981_j86792699118042_1_alg».proof.Proof.Blocks

set_option maxRecDepth 16384

noncomputable section

namespace Cert.KernelIdeal.Acc

open Cert.KernelIdeal Cert.KernelIdeal.Gen Cert.KernelIdeal.Pieces Cert.KernelIdeal.Blocks Cert.Chamfer
open Idealize.ShloMosaic Idealize.ShloMosaic.ValueIdx Idealize.ShloMosaic.Pipeline

variable (m : (ℓ : Loc nD τ sig) → Buf (Elt Ideal) ℓ)

/-- The infimum of a family is its greatest lower bound. -/
theorem isMinOf_iInf {ι : Type} (f : ι → EReal) : IsMinOf (⨅ i, f i) f := fun _ => le_iInf_iff

/-- "Every row below (s + 1)·256" is "every row below s·256" together with "the 256 rows of tile s". -/
theorem forall_tile (P : Fin 4096 → Prop) (s : ℕ) (hs : s < 16) :
    (∀ mm : Fin 4096, mm.val < (s + 1) * 256 → P mm) ↔
      (∀ mm : Fin 4096, mm.val < s * 256 → P mm)
        ∧ ∀ j : Fin 256, P ⟨s * 256 + j.val, by have := j.isLt; omega⟩ := by
  constructor
  · intro H
    exact ⟨fun mm h => H mm (by omega), fun j => H _ (by show s * 256 + j.val < (s + 1) * 256; have := j.isLt; omega)⟩
  · rintro ⟨H1, H2⟩ mm h
    by_cases hlt : mm.val < s * 256
    · exact H1 mm hlt
    · have e : (⟨s * 256 + (mm.val - s * 256), by have := mm.isLt; omega⟩ : Fin 4096) = mm :=
        Fin.ext (by show s * 256 + (mm.val - s * 256) = mm.val; omega)
      exact (congrArg P e).mp (H2 ⟨mm.val - s * 256, by omega⟩)

/-- The running minimum after the point at position `n`. -/
abbrev acc (c : Dev nD) (n : ℕ) (h : n < cfg0.N) : Vec Ideal S4096x1 .f32 := (outsAt0 m c n h).2.2

/-- At the first tile of a batch the running minimum is the tile's row minima folded into +∞. -/
theorem acc_first (c : Dev nD) (t : Fin cfg0.N) (h0 : t.val % 16 = 0) :
    acc m c t.val t.isLt = k0_pay1 (k0_pay6 (xblk m c t) (yblk m c t)) (k0_pay4 (F := Ideal)) := by
  have h1 : ¬ t.val % 16 = 15 := by omega
  show (outsAt0 m c t.val t.isLt).2.2 = _
  rw [outsAt0_A m c t h0 h1]
  dsimp only
  exact sout_A (F := Ideal) c (grid0.coords t) (ms0_0 t) (hs0_0 t) (ms0_1 t) (hs0_1 t) (ms0_2 t) (hs0_2 t) (ms0_3 t) (hs0_3 t) scM0_0 (Memref.isWhole_whole _) _ _ (iblk m c 0 t) (iblk m c 1 t)

/-- At every later tile it is the tile's row minima folded into what the position before left. -/
theorem acc_next (c : Dev nD) (t : Fin cfg0.N) (h0 : ¬ t.val % 16 = 0) :
    acc m c t.val t.isLt = k0_pay1 (k0_pay6 (xblk m c t) (yblk m c t))
      (acc m c (t.val - 1) (Nat.lt_of_le_of_lt (Nat.sub_le _ _) t.isLt)) := by
  show (outsAt0 m c t.val t.isLt).2.2 = _
  by_cases h1 : t.val % 16 = 15
  · rw [outsAt0_C m c t h0 h1]
    dsimp only
    exact sout_C (F := Ideal) c (grid0.coords t) (ms0_0 t) (hs0_0 t) (ms0_1 t) (hs0_1 t) (ms0_2 t) (hs0_2 t) (ms0_3 t) (hs0_3 t) scM0_0 (Memref.isWhole_whole _) _ _ (iblk m c 0 t) (iblk m c 1 t) (outsAt0 m c (t.val - 1) (Nat.lt_of_le_of_lt (Nat.sub_le _ _) t.isLt)).2.2
  · rw [outsAt0_B m c t h0 h1]
    dsimp only
    exact sout_B (F := Ideal) c (grid0.coords t) (ms0_0 t) (hs0_0 t) (ms0_1 t) (hs0_1 t) (ms0_2 t) (hs0_2 t) (ms0_3 t) (hs0_3 t) scM0_0 (Memref.isWhole_whole _) _ _ (iblk m c 0 t) (iblk m c 1 t) (outsAt0 m c (t.val - 1) (Nat.lt_of_le_of_lt (Nat.sub_le _ _) t.isLt)).2.2

/-- The tile's row minimum for row `r`: the least distance from row `r` of X to the 256 rows of tile `t % 16` of Y. -/
theorem tile_min (c : Dev nD) (t : Fin cfg0.N) (r : Fin 4096) (w : Fin 1) (b : Fin 8) (hb : b.val = t.val / 16) :
    IsMinOf (k0_pay6 (F := Ideal) (xblk m c t) (yblk m c t) (ix2 r w))
      (fun j : Fin 256 => dist3 (row (xarr m c) b r)
        (row (yarr m c) b ⟨t.val % 16 * 256 + j.val, by have := j.isLt; omega⟩)) :=
  (pay6_isMinOf (xblk m c t) (yblk m c t) r w).congr fun j =>
    congrArg₂ dist3 (funext fun k => xblk_apply m c t 0 r k b hb)
      (funext fun k => yblk_apply m c t 0 j k b _ hb rfl)

/-- THE INVARIANT: after position `n`, entry `r` of the running minimum is the greatest lower bound of the distances
    from row `r` of X to the rows of Y in tiles 0 … n % 16 of batch n / 16. -/
theorem acc_inv (c : Dev nD) : ∀ (n : ℕ) (h : n < cfg0.N) (r : Fin 4096) (w : Fin 1) (b : Fin 8), b.val = n / 16 →
    ∀ e : EReal, (e ≤ acc m c n h (ix2 r w) ↔
      ∀ mm : Fin 4096, mm.val < (n % 16 + 1) * 256 → e ≤ dist3 (row (xarr m c) b r) (row (yarr m c) b mm)) := by
  intro n
  induction n with
  | zero =>
    intro h r w b hb e
    rw [forall_tile _ (0 % 16) (by omega)]
    rw [show acc m c 0 h = _ from acc_first m c ⟨0, h⟩ rfl, pay1_apply, pay4_apply]
    refine ((tile_min m c ⟨0, h⟩ r w b hb).min_top e).trans ?_
    exact ⟨fun H => ⟨fun mm hmm => absurd hmm (by omega), H⟩, fun H => H.2⟩
  | succ n ih =>
    intro h r w b hb e
    rw [forall_tile _ ((n + 1) % 16) (Nat.mod_lt _ (by omega))]
    by_cases h0 : (n + 1) % 16 = 0
    · rw [show acc m c (n + 1) h = _ from acc_first m c ⟨n + 1, h⟩ h0, pay1_apply, pay4_apply]
      refine ((tile_min m c ⟨n + 1, h⟩ r w b hb).min_top e).trans ?_
      exact ⟨fun H => ⟨fun mm hmm => absurd hmm (by rw [h0]; omega), H⟩, fun H => H.2⟩
    · rw [show acc m c (n + 1) h = _ from acc_next m c ⟨n + 1, h⟩ h0, pay1_apply, le_min_iff]
      have hb' : b.val = n / 16 := by omega
      have ihn := ih (Nat.lt_of_succ_lt h) r w b hb' e
      have hmod : n % 16 + 1 = (n + 1) % 16 := by omega
      rw [hmod] at ihn
      exact and_congr ihn ((tile_min m c ⟨n + 1, h⟩ r w b hb) e)

/-- What the first output ends holding: at (b, r) the least distance from row `r` of X to a row of Y, in batch `b`. -/
def G2 (c : Dev nD) : S8x4096x1.Idx → EReal := fun i =>
  ⨅ mm : Fin 4096, dist3 (row (xarr m c) (i 0) (i 1)) (row (yarr m c) (i 0) mm)

/-- What the second output ends holding: at (b, q) the least distance from a row of X to row `q` of Y, in batch `b`. -/
def G3 (c : Dev nD) : S8x4096x1.Idx → EReal := fun i =>
  ⨅ r : Fin 4096, dist3 (row (xarr m c) (i 0) r) (row (yarr m c) (i 0) (i 1))

/-- At the last tile of a batch the first output's staging buffer receives the finished running minimum. -/
theorem out2_at (c : Dev nD) (t : Fin cfg0.N) (h0 : ¬ t.val % 16 = 0) (h1 : t.val % 16 = 15) :
    (outsAt0 m c t.val t.isLt).1 = k0_pay3 (k0_pay1 (k0_pay6 (xblk m c t) (yblk m c t))
      (acc m c (t.val - 1) (Nat.lt_of_le_of_lt (Nat.sub_le _ _) t.isLt))) := by
  rw [outsAt0_C m c t h0 h1]
  dsimp only
  exact out2_C (F := Ideal) c (grid0.coords t) (ms0_0 t) (hs0_0 t) (ms0_1 t) (hs0_1 t) (ms0_2 t) (hs0_2 t) (ms0_3 t) (hs0_3 t) scM0_0 (Memref.isWhole_whole _) _ _ (iblk m c 0 t) (iblk m c 1 t) (outsAt0 m c (t.val - 1) (Nat.lt_of_le_of_lt (Nat.sub_le _ _) t.isLt)).2.2

/-- Entry by entry, that buffer is the batch's block of `G2`. -/
theorem flushed2_pt (c : Dev nD) (t : Fin cfg0.N) (h0 : ¬ t.val % 16 = 0) (h1 : t.val % 16 = 15) (y : S1x4096x1.Idx) :
    k0_pay3 (F := Ideal) (k0_pay1 (k0_pay6 (xblk m c t) (yblk m c t))
      (acc m c (t.val - 1) (Nat.lt_of_le_of_lt (Nat.sub_le _ _) t.isLt))) y
      = ((cfg0.win 2).blk t).view.read (Elt Ideal) (G2 m c) y := by
  obtain ⟨u, r, w, rfl⟩ : ∃ (u : Fin 1) (r : Fin 4096) (w : Fin 1), y = ix3 u r w := ⟨y 0, y 1, y 2, eq_ix3 y⟩
  have hN : cfg0.N = 128 := N_0
  have hlt : t.val / 16 < 8 := by have := t.isLt; omega
  refine (pay3_apply _ u r w).trans ?_
  refine (congrFun (acc_next m c t h0) (ix2 r w)).symm.trans ?_
  refine Eq.trans ?_ (blk2_read (F := Ideal) t (G2 m c) u r w ⟨t.val / 16, hlt⟩ rfl).symm
  refine IsMinOf.unique (f := fun mm : Fin 4096 => dist3 (row (xarr m c) ⟨t.val / 16, hlt⟩ r) (row (yarr m c) ⟨t.val / 16, hlt⟩ mm))
    (fun e => ?_) (isMinOf_iInf _)
  rw [acc_inv m c t.val t.isLt r w ⟨t.val / 16, hlt⟩ rfl e]
  exact ⟨fun H mm => H mm (by have := mm.isLt; omega), fun H mm _ => H mm⟩

/-- WHAT A BATCH'S LAST POINT WRITES BACK to the first output is the batch's block of `G2`. -/
theorem flushed2 (c : Dev nD) (t : Fin cfg0.N) (hf : (cfg0.win 2).flush t = true) :
    (dats m 0 c).flushed 2 t = ((cfg0.win 2).blk t).view.read (Elt Ideal) (G2 m c) := by
  have h1 : t.val % 16 = 15 := (flush0_2 t).mp hf
  have h0 : ¬ t.val % 16 = 0 := by omega
  show (cfg0.win 2).cut (grid0.coords t) ((dats m 0 c).after 2 t) = _
  rw [after0_2, out2_at m c t h0 h1]
  exact funext (flushed2_pt m c t h0 h1)

/-- At every point the second output's staging buffer receives the tile's column minima. -/
theorem out3_at (c : Dev nD) (t : Fin cfg0.N) :
    (outsAt0 m c t.val t.isLt).2.1 = k0_pay2 (k0_pay7 (xblk m c t) (yblk m c t)) := by
  by_cases h0 : t.val % 16 = 0
  · have h1 : ¬ t.val % 16 = 15 := by omega
    rw [outsAt0_A m c t h0 h1]
    dsimp only
    exact out3_A (F := Ideal) c (grid0.coords t) (ms0_0 t) (hs0_0 t) (ms0_1 t) (hs0_1 t) (ms0_2 t) (hs0_2 t) (ms0_3 t) (hs0_3 t) scM0_0 (Memref.isWhole_whole _) _ _ (iblk m c 0 t) (iblk m c 1 t)
  · by_cases h1 : t.val % 16 = 15
    · rw [outsAt0_C m c t h0 h1]
      dsimp only
      exact out3_C (F := Ideal) c (grid0.coords t) (ms0_0 t) (hs0_0 t) (ms0_1 t) (hs0_1 t) (ms0_2 t) (hs0_2 t) (ms0_3 t) (hs0_3 t) scM0_0 (Memref.isWhole_whole _) _ _ (iblk m c 0 t) (iblk m c 1 t) (outsAt0 m c (t.val - 1) (Nat.lt_of_le_of_lt (Nat.sub_le _ _) t.isLt)).2.2
    · rw [outsAt0_B m c t h0 h1]
      dsimp only
      exact out3_B (F := Ideal) c (grid0.coords t) (ms0_0 t) (hs0_0 t) (ms0_1 t) (hs0_1 t) (ms0_2 t) (hs0_2 t) (ms0_3 t) (hs0_3 t) scM0_0 (Memref.isWhole_whole _) _ _ (iblk m c 0 t) (iblk m c 1 t) (outsAt0 m c (t.val - 1) (Nat.lt_of_le_of_lt (Nat.sub_le _ _) t.isLt)).2.2

/-- Entry by entry, that buffer is the (batch, tile) block of `G3`. -/
theorem flushed3_pt (c : Dev nD) (t : Fin cfg0.N) (y : S1x256x1.Idx) :
    k0_pay2 (F := Ideal) (k0_pay7 (xblk m c t) (yblk m c t)) y = ((cfg0.win 3).blk t).view.read (Elt Ideal) (G3 m c) y := by
  obtain ⟨u, j, w, rfl⟩ : ∃ (u : Fin 1) (j : Fin 256) (w : Fin 1), y = ix3 u j w := ⟨y 0, y 1, y 2, eq_ix3 y⟩
  have hN : cfg0.N = 128 := N_0
  have hlt : t.val / 16 < 8 := by have := t.isLt; omega
  have hq : t.val % 16 * 256 + j.val < 4096 := by have := j.isLt; omega
  refine (pay2_apply _ u j w).trans ?_
  refine Eq.trans ?_ (blk3_read (F := Ideal) t (G3 m c) u j w ⟨t.val / 16, hlt⟩ ⟨t.val % 16 * 256 + j.val, hq⟩ rfl rfl).symm
  refine IsMinOf.unique
    (f := fun r : Fin 4096 => dist3 (row (xarr m c) ⟨t.val / 16, hlt⟩ r) (row (yarr m c) ⟨t.val / 16, hlt⟩ ⟨t.val % 16 * 256 + j.val, hq⟩))
    ((pay7_isMinOf (xblk m c t) (yblk m c t) j).congr fun r =>
      congrArg₂ dist3 (funext fun k => xblk_apply m c t 0 r k ⟨t.val / 16, hlt⟩ rfl)
        (funext fun k => yblk_apply m c t 0 j k ⟨t.val / 16, hlt⟩ ⟨t.val % 16 * 256 + j.val, hq⟩ rfl rfl))
    (isMinOf_iInf _)

/-- WHAT EVERY POINT WRITES BACK to the second output is its block of `G3`. -/
theorem flushed3 (c : Dev nD) (t : Fin cfg0.N) :
    (dats m 0 c).flushed 3 t = ((cfg0.win 3).blk t).view.read (Elt Ideal) (G3 m c) := by
  show (cfg0.win 3).cut (grid0.coords t) ((dats m 0 c).after 3 t) = _
  rw [after0_3, out3_at m c t]
  exact funext (flushed3_pt m c t)

/-- THE FIRST OUTPUT after the run. -/
theorem final2 (c : Dev nD) : (dats m 0 c).arrAt 2 cfg0.N = G2 m c :=
  (dats m 0 c).arrAt_eq_of_cover 2 (G2 m c) (fun t hf => flushed2 m c t hf) cover2

/-- THE SECOND OUTPUT after the run. -/
theorem final3 (c : Dev nD) : (dats m 0 c).arrAt 3 cfg0.N = G3 m c :=
  (dats m 0 c).arrAt_eq_of_cover 3 (G3 m c) (fun t _ => flushed3 m c t) cover3

end Cert.KernelIdeal.Acc

end
-- ==== Proof.RefRead.lean ====
/-
  The reference at an index.

  The reference forms the full 8 × 4096 × 4096 tensor of clamped distances between row n of X and
  row m of Y in batch b — squared lengths broadcast along the other cloud, the matrix product of the
  two clouds for the cross term — and reduces it by `min` along each cloud in turn. Read at an index,
  an entry of the tensor is the distance of the two rows; each reduction is a greatest lower bound.
-/
import proofs.«118981_j86792699118042_1_alg».proof.Proof.Gen.ReferenceIdeal.Read
import proofs.«118981_j86792699118042_1_alg».proof.Proof.Layout

noncomputable section

namespace Cert.Chamfer

open Cert.ReferenceIdeal Cert.ReferenceIdeal.Gen Cert.ReferenceIdeal.Read Idealize.ShloMosaic Idealize.ShloMosaic.ValueIdx
open scoped BigOperators

/-- Entry (b, n, m) of the reference's distance tensor is the clamped distance of row `n` of X and row `m` of Y in
    batch `b`: the host's sums start from a zero that adds nothing, and its matrix product over the three
    coordinates is the three-term sum. -/
theorem ref_dist (X Y : (⟨S8x4096x3, .f32⟩ : BufTy).Contents (Elt Ideal)) (b : Fin 8) (n m : Fin 4096) :
    val_main_v36 (F := Ideal) X Y (ix3 b n m) = dist3 (row X b n) (row Y b m) := by
  have e1 : ∀ k, idx_main_v22 (idx_main_v26 (idx_main_v28 (ix3 b n m))) k = ix3 b n k := fun k =>
    funext fun a => Fin.ext (by match a with | ⟨0, _⟩ => rfl | ⟨1, _⟩ => rfl | ⟨2, _⟩ => rfl)
  have e2 : ∀ k, idx_main_v24 (idx_main_v27 (idx_main_v29 (ix3 b n m))) k = ix3 b m k := fun k =>
    funext fun a => Fin.ext (by match a with | ⟨0, _⟩ => rfl | ⟨1, _⟩ => rfl | ⟨2, _⟩ => rfl)
  have e3 : ∀ k, lidx_main_v25 (ix3 b n m) k = ix3 b n k := fun k =>
    funext fun a => Fin.ext (by match a with | ⟨0, _⟩ => rfl | ⟨1, _⟩ => rfl | ⟨2, _⟩ => rfl)
  have e4 : ∀ k, ridx_main_v25 (ix3 b n m) k = ix3 b m k := fun k =>
    funext fun a => Fin.ext (by match a with | ⟨0, _⟩ => rfl | ⟨1, _⟩ => rfl | ⟨2, _⟩ => rfl)
  rw [val_main_v36_apply, val_main_v35_apply, val_main_v33_apply, val_main_v30_apply, val_main_v32_apply,
    val_main_v34_apply, val_main_cst_6_apply, val_main_v31_apply, val_main_cst_5_apply, val_main_v25_apply,
    val_main_v28_apply, val_main_v26_apply, val_main_v22_apply, val_main_v29_apply, val_main_v27_apply,
    val_main_v24_apply, val_main_cst_3_apply, val_main_cst_4_apply]
  unfold dist3
  simp only [val_main_v21_apply, val_main_v23_apply, e1, e2, e3, e4, Ideal.hostUnary_sqrt_def, Ideal.maximumf_def,
    Ideal.subf_def, Ideal.addf_def, Ideal.mulf_def, Ideal.ofBits_def, Ideal.ofBits_zero_f32, zero_add]

/-- The reference's minimum along Y: entry (b, n) is the least distance from row `n` of X to a row of Y. -/
theorem ref_minOverY (X Y : (⟨S8x4096x3, .f32⟩ : BufTy).Contents (Elt Ideal)) (b : Fin 8) (n : Fin 4096) :
    IsMinOf (val_main_v37 (F := Ideal) X Y (ix2 b n)) (fun m : Fin 4096 => dist3 (row X b n) (row Y b m)) := by
  have hR : S8x4096x4096.Reduces [2] S8x4096 := by decide
  unfold val_main_v37
  refine (hostReduce_minimumf_isMinOf (val_main_v36 (F := Ideal) X Y) (val_main_cst_7 (F := Ideal))
    reducesTo_S8x4096x4096_S8x4096_d2 hR h_S_ rfl (ix2 b n)).congr fun m => ?_
  have e : hR.lift (ix2 b n) m = ix3 b n m :=
    funext fun a => Fin.ext (by match a with | ⟨0, _⟩ => rfl | ⟨1, _⟩ => rfl | ⟨2, _⟩ => rfl)
  rw [e]
  exact ref_dist X Y b n m

/-- The reference's minimum along X: entry (b, m) is the least distance from a row of X to row `m` of Y. -/
theorem ref_minOverX (X Y : (⟨S8x4096x3, .f32⟩ : BufTy).Contents (Elt Ideal)) (b : Fin 8) (m : Fin 4096) :
    IsMinOf (val_main_v38 (F := Ideal) X Y (ix2 b m)) (fun n : Fin 4096 => dist3 (row X b n) (row Y b m)) := by
  have hR : S8x4096x4096.Reduces [1] S8x4096 := by decide
  unfold val_main_v38
  refine (hostReduce_minimumf_isMinOf (val_main_v36 (F := Ideal) X Y) (val_main_cst_8 (F := Ideal))
    reducesTo_S8x4096x4096_S8x4096_d1 hR h_S_ rfl (ix2 b m)).congr fun n => ?_
  have e : hR.lift (ix2 b m) n = ix3 b n m :=
    funext fun a => Fin.ext (by match a with | ⟨0, _⟩ => rfl | ⟨1, _⟩ => rfl | ⟨2, _⟩ => rfl)
  rw [e]
  exact ref_dist X Y b n m

end Cert.Chamfer

end
-- ==== Proof.Tail.lean ====
/-
  The host lines around the region, and the kernel program's three results.

  Before the region the program computes the registration loss from the six small arguments; after it,
  it averages the two arrays of minima the region wrote. The reference ends in the same averaging of
  its own two arrays of minima, and begins with the same registration lines. So the three results are
  the reference's own terms once the region's two arrays are known to be the reference's two minima:
  both are greatest lower bounds of one family of distances.
-/
import proofs.«118981_j86792699118042_1_alg».proof.Proof.Acc
import proofs.«118981_j86792699118042_1_alg».proof.Proof.RefRead
import Idealize.ShloMosaic.Lib.StableHlo.Run

set_option maxRecDepth 16384

noncomputable section

namespace Cert.KernelIdeal.Tail

open Cert.KernelIdeal Cert.KernelIdeal.Gen Cert.KernelIdeal.Acc Cert.KernelIdeal.Blocks Cert.Chamfer
open Idealize.ShloMosaic Idealize.ShloMosaic.ValueIdx Idealize.ShloMosaic.StableHlo

variable (m : (ℓ : Loc nD τ sig) → Buf (Elt Ideal) ℓ)

/-- The averaging both programs end with, as a function of the two [8, 4096] arrays of minima:
    mean over the 4096 entries of each, the two means added, the mean over the 8 batches. -/
def meanOfMinima (p q : FVec Ideal S8x4096 .f32) : FVec Ideal S_ .f32 :=
  Host.divf
    (Host.reduceAdd
      (addf
        (Host.divf (Host.reduceAdd p (constant (F := Ideal) S_ .f32 0x00000000#32) reducesTo_S8x4096_S8_d1 h_S_)
          (broadcastInDim S8 ![] bcast_S_S8 (constant (F := Ideal) S_ .f32 0x45800000#32)))
        (Host.divf (Host.reduceAdd q (constant (F := Ideal) S_ .f32 0x00000000#32) reducesTo_S8x4096_S8_d1 h_S_)
          (broadcastInDim S8 ![] bcast_S_S8 (constant (F := Ideal) S_ .f32 0x45800000#32))))
      (constant (F := Ideal) S_ .f32 0x00000000#32) reducesTo_S8_S_d0 h_S_)
    (constant (F := Ideal) S_ .f32 0x41000000#32)

/-- The reference's last result is that averaging of its two minima. -/
theorem ref_mean (X Y : (⟨Cert.ReferenceIdeal.S8x4096x3, .f32⟩ : BufTy).Contents (Elt Ideal)) :
    Cert.ReferenceIdeal.Read.val_main_v47 (F := Ideal) X Y = meanOfMinima (Cert.ReferenceIdeal.Read.val_main_v37 (F := Ideal) X Y) (Cert.ReferenceIdeal.Read.val_main_v38 (F := Ideal) X Y) := rfl

set_option maxHeartbeats 4000000 in
/-- The registration loss, computed by the host lines before the region, is the reference's term of the same
    six arguments: the two programs spell those lines alike. -/
theorem head20 (c : Dev nD) :
    V0 m c (Proc.devRef .tc main_v20) = Cert.ReferenceIdeal.Read.val_main_v20 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  show StableHlo.after hostOps0 (fun b => m (c, b)) (Proc.devRef .tc main_v20) = _
  after_results
  rfl

/-- The region leaves the first output array at `G2`. -/
theorem arr2 (c : Dev nD) :
    Pipeline.withArrays (cfgs 0).spec c (V0 m c) (fun w => (dats m 0 c).arrAt w (cfgs 0).N) (Proc.devRef .tc main_v21_0)
      = G2 m c :=
  (Pipeline.withArrays_arr spec0 launch0.win.arr_inj c _ _ 2).trans (final2 m c)

/-- The region leaves the second output array at `G3`. -/
theorem arr3 (c : Dev nD) :
    Pipeline.withArrays (cfgs 0).spec c (V0 m c) (fun w => (dats m 0 c).arrAt w (cfgs 0).N) (Proc.devRef .tc main_v21_1)
      = G3 m c :=
  (Pipeline.withArrays_arr spec0 launch0.win.arr_inj c _ _ 3).trans (final3 m c)

/-- The first output with its unit axis dropped is the reference's minimum along Y: both are, at (b, n), the
    greatest lower bound of the distances from row n of X to the rows of Y. -/
theorem red2 (c : Dev nD) :
    shapeCast S8x4096 (G2 m c) shapeCasts_S8x4096x1_S8x4096
      = Cert.ReferenceIdeal.Read.val_main_v37 (F := Ideal) (m ((c.tc : Thread nD τ).loc main_arg6)) (m ((c.tc : Thread nD τ).loc main_arg7)) := by
  funext i
  obtain ⟨b, n, rfl⟩ : ∃ (b : Fin 8) (n : Fin 4096), i = ix2 b n := ⟨i 0, i 1, eq_ix2 i⟩
  refine (shapeCast_apply (G2 m c) shapeCasts_S8x4096x1_S8x4096 (ix2 b n) (ix3 b n (0 : Fin 1)) ?_).trans ?_
  · rw [Shape.rowMajor_val_three, Shape.rowMajor_val_two]
    show (b.val * 4096 + n.val) * 1 + 0 = b.val * 4096 + n.val
    omega
  · have hx : xarr m c = (m ((c.tc : Thread nD τ).loc main_arg6)) := V_main_arg6 m c
    have hy : yarr m c = (m ((c.tc : Thread nD τ).loc main_arg7)) := V_main_arg7 m c
    show (⨅ mm : Fin 4096, dist3 (row (xarr m c) b n) (row (yarr m c) b mm)) = _
    rw [hx, hy]
    exact IsMinOf.unique (isMinOf_iInf _) (ref_minOverY (m ((c.tc : Thread nD τ).loc main_arg6)) (m ((c.tc : Thread nD τ).loc main_arg7)) b n)

/-- The second output with its unit axis dropped is the reference's minimum along X. -/
theorem red3 (c : Dev nD) :
    shapeCast S8x4096 (G3 m c) shapeCasts_S8x4096x1_S8x4096
      = Cert.ReferenceIdeal.Read.val_main_v38 (F := Ideal) (m ((c.tc : Thread nD τ).loc main_arg6)) (m ((c.tc : Thread nD τ).loc main_arg7)) := by
  funext i
  obtain ⟨b, q, rfl⟩ : ∃ (b : Fin 8) (q : Fin 4096), i = ix2 b q := ⟨i 0, i 1, eq_ix2 i⟩
  refine (shapeCast_apply (G3 m c) shapeCasts_S8x4096x1_S8x4096 (ix2 b q) (ix3 b q (0 : Fin 1)) ?_).trans ?_
  · rw [Shape.rowMajor_val_three, Shape.rowMajor_val_two]
    show (b.val * 4096 + q.val) * 1 + 0 = b.val * 4096 + q.val
    omega
  · have hx : xarr m c = (m ((c.tc : Thread nD τ).loc main_arg6)) := V_main_arg6 m c
    have hy : yarr m c = (m ((c.tc : Thread nD τ).loc main_arg7)) := V_main_arg7 m c
    show (⨅ r : Fin 4096, dist3 (row (xarr m c) b r) (row (yarr m c) b q)) = _
    rw [hx, hy]
    exact IsMinOf.unique (isMinOf_iInf _) (ref_minOverX (m ((c.tc : Thread nD τ).loc main_arg6)) (m ((c.tc : Thread nD τ).loc main_arg7)) b q)

set_option maxHeartbeats 4000000 in
/-- THE CHAMFER RESULT of the kernel program is the reference's. -/
theorem tail32 (c : Dev nD) :
    Pipeline.afterTail₀ cfgs (dats m) 0 (V0 m) [hostOps1] c main_v32
      = Cert.ReferenceIdeal.Read.val_main_v47 (F := Ideal) (m ((c.tc : Thread nD τ).loc main_arg6)) (m ((c.tc : Thread nD τ).loc main_arg7)) := by
  unfold Pipeline.afterTail₀
  show StableHlo.after hostOps1 _ (Proc.devRef .tc main_v32) = _
  after_results
  rw [arr2 m c, arr3 m c, ref_mean]
  exact congrArg₂ meanOfMinima (red2 m c) (red3 m c)

set_option maxHeartbeats 4000000 in
/-- THE REGISTRATION RESULT of the kernel program is the reference's. -/
theorem tail20 (c : Dev nD) :
    Pipeline.afterTail₀ cfgs (dats m) 0 (V0 m) [hostOps1] c main_v20
      = Cert.ReferenceIdeal.Read.val_main_v20 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  unfold Pipeline.afterTail₀
  show StableHlo.after hostOps1 _ (Proc.devRef .tc main_v20) = _
  after_results
  rw [Pipeline.withArrays_of_ne _ c (V0 m c) _ main_v20 (by exact (by decide : ∀ w, Pipeline.arrRef spec0 w ≠ main_v20))]
  exact head20 m c

set_option maxHeartbeats 4000000 in
/-- THE TOTAL of the kernel program is the reference's: the sum of the two. -/
theorem tail33 (c : Dev nD) :
    Pipeline.afterTail₀ cfgs (dats m) 0 (V0 m) [hostOps1] c main_v33
      = Cert.ReferenceIdeal.Read.val_main_v48 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  unfold Pipeline.afterTail₀
  show StableHlo.after hostOps1 _ (Proc.devRef .tc main_v33) = _
  after_results
  rw [Pipeline.withArrays_of_ne _ c (V0 m c) _ main_v20 (by exact (by decide : ∀ w, Pipeline.arrRef spec0 w ≠ main_v20)),
    arr2 m c, arr3 m c]
  exact congrArg₂ (addf (F := Ideal) (s := S_) (φ := .f32)) (head20 m c) (congrArg₂ meanOfMinima (red2 m c) (red3 m c))

end Cert.KernelIdeal.Tail

end
-- ==== Proof.lean ====
/-
  The certificate of the Chamfer-plus-registration loss: the Pallas kernel program against its jnp reference.

  Both programs compute, from two clouds X and Y of 8 × 4096 points in ℝ³, the clamped Euclidean distance of
  every pair of rows by the expansion |x|² + |y|² − 2·(x·y); for each row of X the least distance to a row of Y and
  for each row of Y the least distance to a row of X; the means of both, added and averaged over the batch; and a
  registration loss of six small arguments by the same host lines. The reference materialises the whole
  8 × 4096 × 4096 tensor and reduces it twice. The kernel keeps one batch of X resident, walks Y in sixteen tiles of
  256 rows, finishes the minima over X tile by tile, and keeps the minima over Y as a running minimum reset at a
  batch's first tile and written out at its last.

  Over the extended reals the two agree with no hypothesis on the inputs: the kernel's cross term
  (x₀y₀ + x₁y₁) + x₂y₂ is the three-term sum the matrix product denotes; a minimum over 4096 rows is the
  minimum of the sixteen tile minima and of +∞, which is proved on greatest lower bounds; the closing means are
  one term in both programs. The frames of the two kernel programs are the generated ones; the reference's frame is
  its generated run with the results dropped; nothing was rewritten by the idealization, so `preserves` is trivial.
-/
import proofs.«118981_j86792699118042_1_alg».proof.Defs
import proofs.«118981_j86792699118042_1_alg».proof.Proof.Gen.Kernel
import proofs.«118981_j86792699118042_1_alg».proof.Proof.Gen.Kernel.Skeleton
import proofs.«118981_j86792699118042_1_alg».proof.Proof.Gen.Kernel.Launch
import proofs.«118981_j86792699118042_1_alg».proof.Proof.Gen.Kernel.Points
import proofs.«118981_j86792699118042_1_alg».proof.Proof.Gen.Kernel.Frame
import proofs.«118981_j86792699118042_1_alg».proof.Proof.Gen.KernelIdeal
import proofs.«118981_j86792699118042_1_alg».proof.Proof.Gen.KernelIdeal.Skeleton
import proofs.«118981_j86792699118042_1_alg».proof.Proof.Gen.KernelIdeal.Launch
import proofs.«118981_j86792699118042_1_alg».proof.Proof.Gen.KernelIdeal.Points
import proofs.«118981_j86792699118042_1_alg».proof.Proof.Gen.KernelIdeal.Frame
import proofs.«118981_j86792699118042_1_alg».proof.Proof.Gen.ReferenceIdeal
import proofs.«118981_j86792699118042_1_alg».proof.Proof.Gen.Pre_finite_inputs
import proofs.«118981_j86792699118042_1_alg».proof.Proof.Gen.ReferenceIdeal.Run
import proofs.«118981_j86792699118042_1_alg».proof.Proof.Gen.ReferenceIdeal.Read
import proofs.«118981_j86792699118042_1_alg».proof.Proof.Tail
import Idealize.ShloMosaic.Adequacy
import Idealize.ShloMosaic.Init

noncomputable section

namespace Cert.Proof

open Idealize.ShloMosaic Idealize.SL.Sem

section KernelRun

open Cert.KernelIdeal Cert.KernelIdeal.Gen Cert.KernelIdeal.Tail

/-- The idealized kernel program's run with its results named: the total, the registration loss and the Chamfer
    loss end at the reference's own terms of the arguments, and the arguments end unchanged. The results are the
    lines after the region applied to the region's two arrays; an argument the region stages ends at its entry
    contents, one it does not is untouched by the lines after it. -/
theorem kernelIdeal_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v33) = Cert.ReferenceIdeal.Read.val_main_v48 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v20) = Cert.ReferenceIdeal.Read.val_main_v20 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v32) = Cert.ReferenceIdeal.Read.val_main_v47 (F := Ideal) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨((h c).2 main_v33 (Pipeline.mem_restRefs_of main_v33 (by decide) (by decide))).trans (tail33 m c),
      ((h c).2 main_v20 (Pipeline.mem_restRefs_of main_v20 (by decide) (by decide))).trans (tail20 m c),
      ((h c).2 main_v32 (Pipeline.mem_restRefs_of main_v32 (by decide) (by decide))).trans (tail32 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).1 0).trans (((dats m 0 c).arrAt_in 0 rfl _).trans ((A_eq m c 0).trans (V_main_arg6 m c))),
      ((h c).1 1).trans (((dats m 0 c).arrAt_in 1 rfl _).trans ((A_eq m c 1).trans (V_main_arg7 m c)))⟩)
    (run_main m ρ)

end KernelRun

/-- The word-level kernel program terminates without a fault and leaves its arguments as they were. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- The reference is straight-line host code: its run, with the results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- From memories that agree on the eight arguments, both programs end at the same three results: the kernel
    program's are the reference's terms of ITS arguments, and the reference's run gives those terms of arguments
    that are equal. -/
theorem algebraic : Cert.algebraic_KernelIdeal_ReferenceIdeal := by
  intro m ρ m' ρ' _ hagree
  refine ⟨_, _, _, kernelIdeal_run m ρ, ?_⟩
  refine (θ_run Cert.ReferenceIdeal.defs _ _).mono (fun _ h c => ?_) (Cert.ReferenceIdeal.Value.run (F := Ideal) m' ρ')
  obtain ⟨h48, h20, h47, hargs⟩ := h c
  obtain ⟨a0, a1, a2, a3, a4, a5, a6, a7⟩ := hagree c
  refine ⟨?_, ?_, ?_, hargs⟩
  · rw [h48, Cert.ReferenceIdeal.Read.val_main_v48_eq, a0, a1, a2, a3, a4, a5, a6, a7]
  · rw [h20, Cert.ReferenceIdeal.Read.val_main_v20_eq, a0, a1, a2, a3, a4, a5]
  · rw [h47, Cert.ReferenceIdeal.Read.val_main_v47_eq, a6, a7]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
